-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S7168x2048 : S_.BroadcastsInDim S7168x2048 (![] : Fin 0 → Fin S7168x2048.rank)
  reducesTo_S7168x2048_S_d0_1 : S7168x2048.ReducesTo [0, 1] S_
  bcast_S_S56x16 : S_.BroadcastsInDim S56x16 (![] : Fin 0 → Fin S56x16.rank)
  reducesTo_S56x16_S_d0_1 : S56x16.ReducesTo [0, 1] S_
  bcast_S_S2048x7168 : S_.BroadcastsInDim S2048x7168 (![] : Fin 0 → Fin S2048x7168.rank)
  reducesTo_S2048x7168_S_d0_1 : S2048x7168.ReducesTo [0, 1] S_
  bcast_S_S16x56 : S_.BroadcastsInDim S16x56 (![] : Fin 0 → Fin S16x56.rank)
  reducesTo_S16x56_S_d0_1 : S16x56.ReducesTo [0, 1] S_

variable [Facts]

def fn_part1 {F : FTy → Type} [FloatOps F] (main_arg4 : FVec F S56x16 .f32) (main_arg5 : FVec F S2048x7168 .f32) (main_arg6 : FVec F S16x56 .f32) (main_v13 : IVec S_ 1) (main_v16 : IVec S7168x2048 1) : IVec S_ 1 :=
  let main_c_5 : IVec S_ 1 := constantI S_ 1 1#1
  let main_v17 : IVec S_ 1 := (fun x v => Host.reduce IntOp.andi x v reducesTo_S7168x2048_S_d0_1 h_S_) main_v16 main_c_5
  let main_v18 : IVec S_ 1 := andi main_v13 main_v17
  let main_v19 : FVec F S56x16 .f32 := Host.absf main_arg4
  let main_cst_6 : FVec F S_ .f32 := constant S_ .f32 0x7F800000#32
  let main_v20 : FVec F S56x16 .f32 := broadcastInDim S56x16 ![] bcast_S_S56x16 main_cst_6
  let main_v21 : IVec S56x16 1 := cmpf .olt main_v19 main_v20
  let main_c_7 : IVec S_ 1 := constantI S_ 1 1#1
  let main_v22 : IVec S_ 1 := (fun x v => Host.reduce IntOp.andi x v reducesTo_S56x16_S_d0_1 h_S_) main_v21 main_c_7
  let main_v23 : IVec S_ 1 := andi main_v18 main_v22
  let main_v24 : FVec F S2048x7168 .f32 := Host.absf main_arg5
  let main_cst_8 : FVec F S_ .f32 := constant S_ .f32 0x7F800000#32
  let main_v25 : FVec F S2048x7168 .f32 := broadcastInDim S2048x7168 ![] bcast_S_S2048x7168 main_cst_8
  let main_v26 : IVec S2048x7168 1 := cmpf .olt main_v24 main_v25
  let main_c_9 : IVec S_ 1 := constantI S_ 1 1#1
  let main_v27 : IVec S_ 1 := (fun x v => Host.reduce IntOp.andi x v reducesTo_S2048x7168_S_d0_1 h_S_) main_v26 main_c_9
  let main_v28 : IVec S_ 1 := andi main_v23 main_v27
  let main_v29 : FVec F S16x56 .f32 := Host.absf main_arg6
  let main_cst_10 : FVec F S_ .f32 := constant S_ .f32 0x7F800000#32
  let main_v30 : FVec F S16x56 .f32 := broadcastInDim S16x56 ![] bcast_S_S16x56 main_cst_10
  let main_v31 : IVec S16x56 1 := cmpf .olt main_v29 main_v30
  let main_c_11 : IVec S_ 1 := constantI S_ 1 1#1
  let main_v32 : IVec S_ 1 := (fun x v => Host.reduce IntOp.andi x v reducesTo_S16x56_S_d0_1 h_S_) main_v31 main_c_11
  let main_v33 : IVec S_ 1 := andi main_v28 main_v32
  main_v33

def fn {F : FTy → Type} [FloatOps F] (main_arg0 : FVec F S4096x2048 .f32) (main_arg1 : FVec F S7168x2048 .f32) (main_arg2 : FVec F S56x16 .f32) (main_arg3 : FVec F S7168x2048 .f32) (main_arg4 : FVec F S56x16 .f32) (main_arg5 : FVec F S2048x7168 .f32) (main_arg6 : FVec F S16x56 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S7168x2048 .f32 := Host.absf main_arg1
  let main_cst_0 : FVec F S_ .f32 := constant S_ .f32 0x7F800000#32
  let main_v5 : FVec F S7168x2048 .f32 := broadcastInDim S7168x2048 ![] bcast_S_S7168x2048 main_cst_0
  let main_v6 : IVec S7168x2048 1 := cmpf .olt main_v4 main_v5
  let main_c_1 : IVec S_ 1 := constantI S_ 1 1#1
  let main_v7 : IVec S_ 1 := (fun x v => Host.reduce IntOp.andi x v reducesTo_S7168x2048_S_d0_1 h_S_) main_v6 main_c_1
  let main_v8 : IVec S_ 1 := andi main_v3 main_v7
  let main_v9 : FVec F S56x16 .f32 := Host.absf main_arg2
  let main_cst_2 : FVec F S_ .f32 := constant S_ .f32 0x7F800000#32
  let main_v10 : FVec F S56x16 .f32 := broadcastInDim S56x16 ![] bcast_S_S56x16 main_cst_2
  let main_v11 : IVec S56x16 1 := cmpf .olt main_v9 main_v10
  let main_c_3 : IVec S_ 1 := constantI S_ 1 1#1
  let main_v12 : IVec S_ 1 := (fun x v => Host.reduce IntOp.andi x v reducesTo_S56x16_S_d0_1 h_S_) main_v11 main_c_3
  let main_v13 : IVec S_ 1 := andi main_v8 main_v12
  let main_v14 : FVec F S7168x2048 .f32 := Host.absf main_arg3
  let main_cst_4 : FVec F S_ .f32 := constant S_ .f32 0x7F800000#32
  let main_v15 : FVec F S7168x2048 .f32 := broadcastInDim S7168x2048 ![] bcast_S_S7168x2048 main_cst_4
  let main_v16 : IVec S7168x2048 1 := cmpf .olt main_v14 main_v15
  fn_part1 (F := F) main_arg4 main_arg5 main_arg6 main_v13 main_v16
-- ==== Kernel.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S56x128x16x128 : Shape := ⟨4, ![56, 128, 16, 128]⟩
abbrev S56x1x16x1 : Shape := ⟨4, ![56, 1, 16, 1]⟩
abbrev S16x128x56x128 : Shape := ⟨4, ![16, 128, 56, 128]⟩
abbrev S16x1x56x1 : Shape := ⟨4, ![16, 1, 56, 1]⟩
abbrev S4096x7168 : Shape := ⟨2, ![4096, 7168]⟩
abbrev S512x1024 : Shape := ⟨2, ![512, 1024]⟩
abbrev S1024x1024 : Shape := ⟨2, ![1024, 1024]⟩

abbrev nBuf : Space → Nat
  | .hbm => 31
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S7168x2048, .f32⟩
  | .hbm, ⟨2, _⟩ => ⟨S56x16, .f32⟩
  | .hbm, ⟨3, _⟩ => ⟨S7168x2048, .f32⟩
  | .hbm, ⟨4, _⟩ => ⟨S56x16, .f32⟩
  | .hbm, ⟨5, _⟩ => ⟨S2048x7168, .f32⟩
  | .hbm, ⟨6, _⟩ => ⟨S16x56, .f32⟩
  | .hbm, ⟨7, _⟩ => ⟨S4096x2048, .bf16⟩
  | .hbm, ⟨8, _⟩ => ⟨S56x128x16x128, .f32⟩
  | .hbm, ⟨9, _⟩ => ⟨S56x1x16x1, .f32⟩
  | .hbm, ⟨10, _⟩ => ⟨S56x128x16x128, .f32⟩
  | .hbm, ⟨11, _⟩ => ⟨S56x128x16x128, .f32⟩
  | .hbm, ⟨12, _⟩ => ⟨S7168x2048, .f32⟩
  | .hbm, ⟨13, _⟩ => ⟨S2048x7168, .f32⟩
  | .hbm, ⟨14, _⟩ => ⟨S2048x7168, .bf16⟩
  | .hbm, ⟨15, _⟩ => ⟨S56x128x16x128, .f32⟩
  | .hbm, ⟨16, _⟩ => ⟨S56x1x16x1, .f32⟩
  | .hbm, ⟨17, _⟩ => ⟨S56x128x16x128, .f32⟩
  | .hbm, ⟨18, _⟩ => ⟨S56x128x16x128, .f32⟩
  | .hbm, ⟨19, _⟩ => ⟨S7168x2048, .f32⟩
  | .hbm, ⟨20, _⟩ => ⟨S2048x7168, .f32⟩
  | .hbm, ⟨21, _⟩ => ⟨S2048x7168, .bf16⟩
  | .hbm, ⟨22, _⟩ => ⟨S16x128x56x128, .f32⟩
  | .hbm, ⟨23, _⟩ => ⟨S16x1x56x1, .f32⟩
  | .hbm, ⟨24, _⟩ => ⟨S16x128x56x128, .f32⟩
  | .hbm, ⟨25, _⟩ => ⟨S16x128x56x128, .f32⟩
  | .hbm, ⟨26, _⟩ => ⟨S2048x7168, .f32⟩
  | .hbm, ⟨27, _⟩ => ⟨S7168x2048, .f32⟩
  | .hbm, ⟨28, _⟩ => ⟨S7168x2048, .bf16⟩
  | .hbm, ⟨29, _⟩ => ⟨S4096x7168, .bf16⟩
  | .hbm, ⟨30, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 7, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 7], ![false, false, false]⟩

def k1_cond2 (i : grid1.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bitsLt_bf16_f32 : FTy.bits .bf16 < FTy.bits .f32
  shapeCasts_S7168x2048_S56x128x16x128 : S7168x2048.ShapeCasts S56x128x16x128
  bcast_S56x16_S56x1x16x1_0_2 : S56x16.BroadcastsInDim S56x1x16x1 (![0, 2] : Fin 2 → Fin S56x1x16x1.rank)
  bcast_S56x1x16x1_S56x128x16x128_0_1_2_3 : S56x1x16x1.BroadcastsInDim S56x128x16x128 (![0, 1, 2, 3] : Fin 4 → Fin S56x128x16x128.rank)
  shapeCasts_S56x128x16x128_S7168x2048 : S56x128x16x128.ShapeCasts S7168x2048
  transposes_S7168x2048_S2048x7168_1_0 : S7168x2048.Transposes [1, 0] S2048x7168
  shapeCasts_S2048x7168_S16x128x56x128 : S2048x7168.ShapeCasts S16x128x56x128
  bcast_S16x56_S16x1x56x1_0_2 : S16x56.BroadcastsInDim S16x1x56x1 (![0, 2] : Fin 2 → Fin S16x1x56x1.rank)
  bcast_S16x1x56x1_S16x128x56x128_0_1_2_3 : S16x1x56x1.BroadcastsInDim S16x128x56x128 (![0, 1, 2, 3] : Fin 4 → Fin S16x128x56x128.rank)
  shapeCasts_S16x128x56x128_S2048x7168 : S16x128x56x128.ShapeCasts S2048x7168
  transposes_S2048x7168_S7168x2048_1_0 : S2048x7168.Transposes [1, 0] S7168x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .bf16 = 32 ∨ (Rect.block (s := S4096x2048) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x7168.size a
  hwx0_1 : ∀ i : grid0.Coords, EltTy.bits .bf16 = 32 ∨ (Rect.block (s := S2048x7168) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x7168.size a
  hwx0_2 : ∀ i : grid0.Coords, EltTy.bits .bf16 = 32 ∨ (Rect.block (s := S2048x7168) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x7168.size a
  hwx0_3 : ∀ i : grid0.Coords, EltTy.bits .bf16 = 32 ∨ (Rect.block (s := S4096x7168) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x7168.size a
  hwx1_0 : ∀ i : grid1.Coords, EltTy.bits .bf16 = 32 ∨ (Rect.block (s := S4096x7168) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S7168x2048.size a
  hwx1_1 : ∀ i : grid1.Coords, EltTy.bits .bf16 = 32 ∨ (Rect.block (s := S7168x2048) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x2048.size a
  hwx1_2 : ∀ i : grid1.Coords, EltTy.bits .f32 = 32 ∨ (Rect.block (s := S4096x2048) S512x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v22) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S7168x2048 : Shape := ⟨2, ![7168, 2048]⟩
abbrev S56x16 : Shape := ⟨2, ![56, 16]⟩
abbrev S2048x7168 : Shape := ⟨2, ![2048, 7168]⟩
abbrev S16x56 : Shape := ⟨2, ![16, 56]⟩
abbrev S56x128x16x128 : Shape := ⟨4, ![56, 128, 16, 128]⟩
abbrev S56x1x16x1 : Shape := ⟨4, ![56, 1, 16, 1]⟩
abbrev S16x128x56x128 : Shape := ⟨4, ![16, 128, 56, 128]⟩
abbrev S16x1x56x1 : Shape := ⟨4, ![16, 1, 56, 1]⟩
abbrev S4096x7168 : Shape := ⟨2, ![4096, 7168]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S7168x2048, .f32⟩
  | .hbm, ⟨2, _⟩ => ⟨S56x16, .f32⟩
  | .hbm, ⟨3, _⟩ => ⟨S7168x2048, .f32⟩
  | .hbm, ⟨4, _⟩ => ⟨S56x16, .f32⟩
  | .hbm, ⟨5, _⟩ => ⟨S2048x7168, .f32⟩
  | .hbm, ⟨6, _⟩ => ⟨S16x56, .f32⟩
  | .hbm, ⟨7, _⟩ => ⟨S56x128x16x128, .f32⟩
  | .hbm, ⟨8, _⟩ => ⟨S56x1x16x1, .f32⟩
  | .hbm, ⟨9, _⟩ => ⟨S56x128x16x128, .f32⟩
  | .hbm, ⟨10, _⟩ => ⟨S56x128x16x128, .f32⟩
  | .hbm, ⟨11, _⟩ => ⟨S7168x2048, .f32⟩
  | .hbm, ⟨12, _⟩ => ⟨S56x128x16x128, .f32⟩
  | .hbm, ⟨13, _⟩ => ⟨S56x1x16x1, .f32⟩
  | .hbm, ⟨14, _⟩ => ⟨S56x128x16x128, .f32⟩
  | .hbm, ⟨15, _⟩ => ⟨S56x128x16x128, .f32⟩
  | .hbm, ⟨16, _⟩ => ⟨S7168x2048, .f32⟩
  | .hbm, ⟨17, _⟩ => ⟨S16x128x56x128, .f32⟩
  | .hbm, ⟨18, _⟩ => ⟨S16x1x56x1, .f32⟩
  | .hbm, ⟨19, _⟩ => ⟨S16x128x56x128, .f32⟩
  | .hbm, ⟨20, _⟩ => ⟨S16x128x56x128, .f32⟩
  | .hbm, ⟨21, _⟩ => ⟨S2048x7168, .f32⟩
  | .hbm, ⟨22, _⟩ => ⟨S2048x7168, .f32⟩
  | .hbm, ⟨23, _⟩ => ⟨S4096x7168, .f32⟩
  | .hbm, ⟨24, _⟩ => ⟨S2048x7168, .f32⟩
  | .hbm, ⟨25, _⟩ => ⟨S4096x7168, .f32⟩
  | .hbm, ⟨26, _⟩ => ⟨S4096x7168, .f32⟩
  | .hbm, ⟨27, _⟩ => ⟨S4096x7168, .f32⟩
  | .hbm, ⟨28, _⟩ => ⟨S_, .f32⟩
  | .hbm, ⟨29, _⟩ => ⟨S4096x7168, .f32⟩
  | .hbm, ⟨30, _⟩ => ⟨S4096x7168, .f32⟩
  | .hbm, ⟨31, _⟩ => ⟨S_, .f32⟩
  | .hbm, ⟨32, _⟩ => ⟨S4096x7168, .f32⟩
  | .hbm, ⟨33, _⟩ => ⟨S4096x7168, .f32⟩
  | .hbm, ⟨34, _⟩ => ⟨S4096x7168, .f32⟩
  | .hbm, ⟨35, _⟩ => ⟨S4096x7168, .f32⟩
  | .hbm, ⟨36, _⟩ => ⟨S7168x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  shapeCasts_S7168x2048_S56x128x16x128 : S7168x2048.ShapeCasts S56x128x16x128
  bcast_S56x16_S56x1x16x1_0_2 : S56x16.BroadcastsInDim S56x1x16x1 (![0, 2] : Fin 2 → Fin S56x1x16x1.rank)
  bcast_S56x1x16x1_S56x128x16x128_0_1_2_3 : S56x1x16x1.BroadcastsInDim S56x128x16x128 (![0, 1, 2, 3] : Fin 4 → Fin S56x128x16x128.rank)
  shapeCasts_S56x128x16x128_S7168x2048 : S56x128x16x128.ShapeCasts S7168x2048
  shapeCasts_S2048x7168_S16x128x56x128 : S2048x7168.ShapeCasts S16x128x56x128
  bcast_S16x56_S16x1x56x1_0_2 : S16x56.BroadcastsInDim S16x1x56x1 (![0, 2] : Fin 2 → Fin S16x1x56x1.rank)
  bcast_S16x1x56x1_S16x128x56x128_0_1_2_3 : S16x1x56x1.BroadcastsInDim S16x128x56x128 (![0, 1, 2, 3] : Fin 4 → Fin S16x128x56x128.rank)
  shapeCasts_S16x128x56x128_S2048x7168 : S16x128x56x128.ShapeCasts S2048x7168
  transposes_S7168x2048_S2048x7168_1_0 : S7168x2048.Transposes [1, 0] S2048x7168
  bcast_S_S4096x7168 : S_.BroadcastsInDim S4096x7168 (![] : Fin 0 → Fin S4096x7168.rank)
  transposes_S2048x7168_S7168x2048_1_0 : S2048x7168.Transposes [1, 0] S7168x2048
  dot_S4096x2048_S2048x7168_S4096x7168_1_0_0_1_n_n_wf : DotDims.WF S4096x2048 S2048x7168 S4096x7168 [1] [0] [0] [1] [] []
  dot_S4096x7168_S7168x2048_S4096x2048_1_0_0_1_n_n_wf : DotDims.WF S4096x7168 S7168x2048 S4096x2048 [1] [0] [0] [1] [] []

variable [Facts₀]

def dot_S4096x2048_S2048x7168_S4096x7168_1_0_0_1_n_n : DotDims S4096x2048 S2048x7168 S4096x7168 where
  lhsContracting := [1]
  rhsContracting := [0]
  lhsNonContracting := [0]
  rhsNonContracting := [1]
  lhsBatch := []
  rhsBatch := []
  wf := dot_S4096x2048_S2048x7168_S4096x7168_1_0_0_1_n_n_wf
def dot_S4096x7168_S7168x2048_S4096x2048_1_0_0_1_n_n : DotDims S4096x7168 S7168x2048 S4096x2048 where
  lhsContracting := [1]
  rhsContracting := [0]
  lhsNonContracting := [0]
  rhsNonContracting := [1]
  lhsBatch := []
  rhsBatch := []
  wf := dot_S4096x7168_S7168x2048_S4096x2048_1_0_0_1_n_n_wf

class Facts : Prop extends Facts₀ where

variable [Facts]
-- ==== Proof.KFr0.lean ====
/-
  The first pallas_call (`act = (g · σ(g)) · u` with `g = x · W1ᵀ`, `u = x · W3ᵀ`, each accumulated over two blocks
  of 1024 hidden coordinates) as one region of the program, at a parameter `V`: the TensorCore's buffer contents
  when the region is entered.

  The grid is 8 × 7 × 2; its last coordinate `k` is the block of the contracted axis, so grid position `t` has
  `k = t mod 2`.  The body keeps two 512 × 1024 accumulators (for `g` and for `u`) in scratch buffers that live
  across grid positions: at `k = 0` both are reset to zero and the first partial products added; at `k = 1` the
  second partial products are added to what the position before left, and the gated activation of the two sums is
  stored into the output block, which the pipeline then writes back.  `gu0` is the pair of accumulators after each
  position; the invariant `PhiS0` carries the two scratch buffers at `gu0` of the position before; the output
  window is idle (handed back untouched) at every position with `k = 0`.
-/
import proofs.«156519_j90640989814791_1_alg».proof.Proof.Gen.Kernel.Launch
import proofs.«156519_j90640989814791_1_alg».proof.Proof.Gen.Kernel.Skeleton
import proofs.«156519_j90640989814791_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block at every position (fetched at each, never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first block of the contracted axis" (`k = 0`), as the body computes it. -/
abbrev cond0_0 (i : grid0.Coords) : Prop := (Scalar.cmpi .ne (Scalar.extui (Scalar.cmpi .eq (BitVec.ofNat 32 (i 2).val) 0#32)) 0#32) = 1#1
/-- It holds at the even positions. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last block of the contracted axis" (`k = 1`). -/
abbrev cond0_1 (i : grid0.Coords) : Prop := k0_cond2 i = 1#1
/-- It holds at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first block the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a last block it is stored into. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The two accumulators' scratch buffers (for `g` and for `u`). -/
abbrev scM0_0 : Memref sig .tc .vmem S512x1024 .f32 := Memref.whole cc0_scratch0
abbrev scM0_1 : Memref sig .tc .vmem S512x1024 .f32 := Memref.whole cc0_scratch1

/-- The core's scoped buffers other than this region's staging buffers: the two accumulators' scratch, owned at
    some contents, beside all the others left unopened. -/
theorem scopedRest0_split (c : Dev nD) :
    (Pipeline.scopedRest (Ix := Unit) (Name := ℕ) (U := UR sig nD τ) (Lvl := ℕ) (Val := Elt F) spec0 c : sProp 𝕄)
      = iprop(((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [Pipeline.scopedRest_split_of_list spec0 c [cc0_scratch0, cc0_scratch1] (by decide) (by decide)]
  simp only [scM0_0, scM0_1, owns_whole]; try rfl

/-- The region's entry invariant with the accumulators' scratch named. -/
theorem PhiA0_eq (c : Dev nD) :
    (Pipeline.ΦA spec0 c : sProp 𝕄)
      = iprop(iprop(((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]

/-! ## The body, case by case -/

set_option maxHeartbeats 2000000 in
/-- FIRST block (`k = 0`): both accumulators, found at anything, are reset to zero and the first partial products
    added; the output buffer is not touched. -/
theorem sound0_first (c : Dev nD) (E : Set ℕ) (i : grid0.Coords)
    (arg3 : Memref sig .tc .vmem S512x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : cond0_0 i) (hc1 : ¬cond0_1 i)
    (x0 : Vec F S512x1024 .bf16) (x1 : Vec F S1024x1024 .bf16) (x2 : Vec F S1024x1024 .bf16) (xi : Vec F S512x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi
            ∗ owns (c : Thread nD τ) arg7 fullShare (k0_pay3 k0_pay1 x0 x1) ∗ owns (c : Thread nD τ) arg8 fullShare (k0_pay4 k0_pay2 x0 x2)) -∗ K ⟨⟩))
      ⊢ wp frame (wpE (defs₀ (F := F)) Variants.none c none) E (cc0__gemm13_act_kernel i arg3 harg3 arg4 harg4 arg5 harg5 arg6 harg6 arg7 harg7 arg8 harg8) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%f3, %hf3, H3⟩, ⟨%ds7, %fs7, -, HS7⟩, ⟨%ds8, %fs8, -, HS8⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS7]
  · iexists _; isplitr
    swap; · iexact HS7
    ipureintro
    sl_unfold_words
    rw [View.read_writes_eq_canon _ _ _ (fun y => ⟨_, List.mem_cons.mpr (Or.inl rfl), View.mem_set_unit_zero hz inb_S512x1024_S512x1024_0_0 y⟩), View.canon_cons_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS8
  ipureintro
  sl_unfold_words
  rw [View.read_writes_eq_canon _ _ _ (fun y => ⟨_, List.mem_cons.mpr (Or.inl rfl), View.mem_set_unit_zero hz inb_S512x1024_S512x1024_0_0 y⟩), View.canon_cons_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 2000000 in
/-- LAST block (`k = 1`): the second partial products are added to the accumulators as found, and the gated activation of
    the two sums is stored into the output buffer, found at anything. -/
theorem sound0_last (c : Dev nD) (E : Set ℕ) (i : grid0.Coords)
    (arg3 : Memref sig .tc .vmem S512x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : ¬cond0_0 i) (hc1 : cond0_1 i)
    (x0 : Vec F S512x1024 .bf16) (x1 : Vec F S1024x1024 .bf16) (x2 : Vec F S1024x1024 .bf16) (xs7 : Vec F S512x1024 .f32) (xs8 : Vec F S512x1024 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare xs7 ∗ owns (c : Thread nD τ) arg8 fullShare xs8
        ∗ (iprop(owns (c : Thread nD τ) arg3 fullShare x0 ∗ owns (c : Thread nD τ) arg4 fullShare x1 ∗ owns (c : Thread nD τ) arg5 fullShare x2
            ∗ owns (c : Thread nD τ) arg6 fullShare (k0_pay5 (k0_pay3 xs7 x0 x1) (k0_pay4 xs8 x0 x2))
            ∗ owns (c : Thread nD τ) arg7 fullShare (k0_pay3 xs7 x0 x1) ∗ owns (c : Thread nD τ) arg8 fullShare (k0_pay4 xs8 x0 x2)) -∗ K ⟨⟩))
      ⊢ wp frame (wpE (defs₀ (F := F)) Variants.none c none) E (cc0__gemm13_act_kernel i arg3 harg3 arg4 harg4 arg5 harg5 arg6 harg6 arg7 harg7 arg8 harg8) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%d3, %f3, -, H3⟩, ⟨%fs7, %hfs7, HS7⟩, ⟨%fs8, %hfs8, HS8⟩, Hk⟩
  obtain rfl := harg3.eq_unread hf0; obtain rfl := harg4.eq_unread hf1; obtain rfl := harg5.eq_unread hf2
  obtain rfl := harg7.eq_unread hfs7; obtain rfl := harg8.eq_unread hfs8
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  isplitl [HS7]
  · iexists _; isplitr
    swap; · iexact HS7
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS8
  ipureintro
  sl_unfold_words
  rw [View.read_writes_eq_canon _ _ _ (fun y => ⟨_, List.mem_cons.mpr (Or.inl rfl), View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

/-! ## The accumulators after each position -/

/-- What the two scratch accumulators hold after the body at position `n` (the one for `g`, the one for `u`): at a
    first block the first partial products over zero, otherwise the position's partial products over what the
    position before left. -/
def gu0 (c : Dev nD) : (n : ℕ) → n < cfg0.N → Vec F S512x1024 .f32 × Vec F S512x1024 .f32
  | 0, hn => (k0_pay3 k0_pay1 (iblk0 V c 0 ⟨0, hn⟩) (iblk0 V c 1 ⟨0, hn⟩), k0_pay4 k0_pay2 (iblk0 V c 0 ⟨0, hn⟩) (iblk0 V c 2 ⟨0, hn⟩))
  | n + 1, hn =>
    if (n + 1) % 2 = 0 then (k0_pay3 k0_pay1 (iblk0 V c 0 ⟨n + 1, hn⟩) (iblk0 V c 1 ⟨n + 1, hn⟩), k0_pay4 k0_pay2 (iblk0 V c 0 ⟨n + 1, hn⟩) (iblk0 V c 2 ⟨n + 1, hn⟩))
    else (k0_pay3 (gu0 c n (Nat.lt_of_succ_lt hn)).1 (iblk0 V c 0 ⟨n + 1, hn⟩) (iblk0 V c 1 ⟨n + 1, hn⟩),
          k0_pay4 (gu0 c n (Nat.lt_of_succ_lt hn)).2 (iblk0 V c 0 ⟨n + 1, hn⟩) (iblk0 V c 2 ⟨n + 1, hn⟩))

/-- At a first block. -/
theorem gu0_first (c : Dev nD) (t : Fin cfg0.N) (h : t.val % 2 = 0) :
    gu0 V c t.val t.isLt = (k0_pay3 k0_pay1 (iblk0 V c 0 t) (iblk0 V c 1 t), k0_pay4 k0_pay2 (iblk0 V c 0 t) (iblk0 V c 2 t)) := by
  obtain ⟨n, hn⟩ := t
  cases n with
  | zero => rfl
  | succ n => exact (if_pos h).trans rfl

/-- At a last block: over what the position before left. -/
theorem gu0_step (c : Dev nD) (t : Fin cfg0.N) (h : ¬t.val % 2 = 0) :
    gu0 V c t.val t.isLt
      = (k0_pay3 (gu0 V c (t.val - 1) (Nat.lt_of_le_of_lt (Nat.sub_le _ _) t.isLt)).1 (iblk0 V c 0 t) (iblk0 V c 1 t),
         k0_pay4 (gu0 V c (t.val - 1) (Nat.lt_of_le_of_lt (Nat.sub_le _ _) t.isLt)).2 (iblk0 V c 0 t) (iblk0 V c 2 t)) := by
  obtain ⟨n, hn⟩ := t
  cases n with
  | zero => exact absurd (Nat.zero_mod _) h
  | succ n => exact (if_neg h).trans rfl

/-- What the output block's staging buffer holds after the body at a last block: the gated activation of the two sums. -/
def o0 (c : Dev nD) (n : ℕ) (hn : n < cfg0.N) : Vec F S512x1024 .bf16 :=
  k0_pay5 (gu0 V c n hn).1 (gu0 V c n hn).2

/-! ## The invariant and the proof data -/

/-- The region's invariant before position `n`: before the first, the entry invariant (every scratch at anything);
    afterwards the two accumulators' scratch at what the position before left, the other scoped buffers unopened,
    the generator register at some state. -/
def PhiS0 (c : Dev nD) : (n : ℕ) → n ≤ cfg0.N → sProp 𝕄
  | 0, _ => Pipeline.ΦA spec0 c
  | n + 1, hn => iprop(iprop((owns (c : Thread nD τ) scM0_0 fullShare (gu0 V c n hn).1 ∗ owns (c : Thread nD τ) scM0_1 fullShare (gu0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop((owns (c : Thread nD τ) scM0_0 fullShare (gu0 V c n hn).1 ∗ owns (c : Thread nD τ) scM0_1 fullShare (gu0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop((owns (c : Thread nD τ) scM0_0 fullShare (gu0 V c (n - 1) (by omega)).1 ∗ owns (c : Thread nD τ) scM0_1 fullShare (gu0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of this pipeline on core `c`: the arrays as the region finds them; after the body each input's
    buffer at its block and the output's at the gated activation of the accumulators (read only where the block is
    written back: at a last block); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => o0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = o0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any position: the parity of `t` says which case the position is in; the invariant hands the body
    the accumulators at what the position before left (at anything at a first block, where they are reset), and
    takes them back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 112 := lt_of_lt_of_eq t.isLt (show cfg0.N = 112 from N_0)
  by_cases h0 : t.val % 2 = 0
  · have h1 : ¬t.val % 2 = 1 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [gu0_first V c t h0]
    by_cases hz : t.val = 0
    · rw [PhiS0_castSucc V c t, PhiS0_zero V c _ _ hz, PhiA0_eq]
      iintro ⟨⟨⟨⟨HS7, HS8⟩, Hrest⟩, Hg⟩, Ho, ⟨%d0, H0⟩, ⟨%d1, H1⟩, ⟨%d2, H2⟩, ⟨%d3, H3⟩⟩
      iapply (sound0_first c Set.univ (grid0.coords t) _ _ _ _ _ _ _ _ _ _ _ _ hc0 hc1 (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS7]; · iexact HS7
      isplitl [HS8]; · iexact HS8
      iintro ⟨H0, H1, H2, H3, HS7, HS8⟩
      isplitl [HS7 HS8 Hrest Hg]
      · isplitl [HS7 HS8 Hrest]
        · isplitl [HS7 HS8]
          · isplitl [HS7]; · iexact HS7
            iexact HS8
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨⟨HS7, HS8⟩, Hrest⟩, Hg⟩, Ho, ⟨%d0, H0⟩, ⟨%d1, H1⟩, ⟨%d2, H2⟩, ⟨%d3, H3⟩⟩
      iapply (sound0_first c Set.univ (grid0.coords t) _ _ _ _ _ _ _ _ _ _ _ _ hc0 hc1 (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS7]; · iexists _; iexact HS7
      isplitl [HS8]; · iexists _; iexact HS8
      iintro ⟨H0, H1, H2, H3, HS7, HS8⟩
      isplitl [HS7 HS8 Hrest Hg]
      · isplitl [HS7 HS8 Hrest]
        · isplitl [HS7 HS8]
          · isplitl [HS7]; · iexact HS7
            iexact HS8
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have h1 : t.val % 2 = 1 := by omega
    have hc0 : ¬cond0_0 (grid0.coords t) := fun h => h0 ((hcond0_0 t).mp h)
    have hc1 : cond0_1 (grid0.coords t) := (hcond0_1 t).mpr h1
    rw [show (dat0 V c).leavesExact 3 t = owns (c : Thread nD τ) (ms0_3 t) fullShare ((dat0 V c).after 3 t) from by
      unfold Dat.leavesExact; rw [liveAt0_3 t hc1], after0_3]
    unfold o0
    rw [gu0_step V c t h0]
    rw [PhiS0_castSucc V c t, PhiS0_pos V c _ _ hz]
    iintro ⟨⟨⟨⟨HS7, HS8⟩, Hrest⟩, Hg⟩, Ho, ⟨%d0, H0⟩, ⟨%d1, H1⟩, ⟨%d2, H2⟩, ⟨%d3, H3⟩⟩
    iapply (sound0_last c Set.univ (grid0.coords t) _ _ _ _ _ _ _ _ _ _ _ _ hc0 hc1 (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [HS7]; · iexact HS7
    isplitl [HS8]; · iexact HS8
    iintro ⟨H0, H1, H2, H3, HS7, HS8⟩
    isplitl [HS7 HS8 Hrest Hg]
    · isplitl [HS7 HS8 Hrest]
      · isplitl [HS7 HS8]
        · isplitl [HS7]; · iexact HS7
          iexact HS8
        iexact Hrest
      iexact Hg
    isplitl [Ho]; · iexact Ho
    isplitl [H0]; · iexact H0
    isplitl [H1]; · iexact H1
    isplitl [H2]; · iexact H2
    iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives the entry invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 112 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨⟨HS7, HS8⟩, Hrest⟩, Hg⟩
  isplitl [HS7 HS8 Hrest]
  · isplitl [HS7 HS8]
    · isplitl [HS7]; · iexists _; iexact HS7
      iexists _; iexact HS8
    iexact Hrest
  iexact Hg

end Region0

end Cert.Kernel.Fr

end
-- ==== Proof.KFr1.lean ====
/-
  The second pallas_call (`out = act · W2ᵀ`, accumulated over seven blocks of 1024 inner coordinates) as one
  region of the program, at a parameter `V`: the TensorCore's buffer contents when the region is entered.

  The grid is 8 × 2 × 7; its last coordinate `k` is the block of the contracted axis, so grid position `t` has
  `k = t mod 7`.  The body keeps a 512 × 1024 accumulator in a scratch buffer that lives across grid positions:
  at `k = 0` it is reset to zero and the first partial product is added; at every later `k` the partial
  product of the position's two input blocks is added to what the position before left; at `k = 6` the
  accumulator is also stored into the output block, which the pipeline then writes back.  `acc1` is that
  accumulator after each position, by recursion on the position; the invariant `PhiS1` carries the scratch buffer
  at `acc1` of the position before; the output window is idle (handed back untouched) at every position with
  `k ≠ 6`.  The body's three control cases are run once each (`sound1_first`, `sound1_mid`, `sound1_last`), and
  the obligation at a position picks its case from `t mod 7`.
-/
import proofs.«156519_j90640989814791_1_alg».proof.Proof.Gen.Kernel.Launch
import proofs.«156519_j90640989814791_1_alg».proof.Proof.Gen.Kernel.Skeleton
import proofs.«156519_j90640989814791_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every position (it is fetched at each, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every position. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first block of the contracted axis" (`k = 0`), as the body computes it. -/
abbrev cond1_0 (i : grid1.Coords) : Prop := (Scalar.cmpi .ne (Scalar.extui (Scalar.cmpi .eq (BitVec.ofNat 32 (i 2).val) 0#32)) 0#32) = 1#1
/-- It holds at the positions ≡ 0 (mod 7). -/
theorem hcond1_0 : ∀ t : Fin cfg1.N, cond1_0 (grid1.coords t) ↔ t.val % 7 = 0 :=
  (by decide +kernel : ∀ t : Fin grid1.N, cond1_0 (grid1.coords t) ↔ t.val % 7 = 0)
/-- "This is the last block of the contracted axis" (`k = 6`). -/
abbrev cond1_1 (i : grid1.Coords) : Prop := k1_cond2 i = 1#1
/-- It holds at the positions ≡ 6 (mod 7). -/
theorem hcond1_1 : ∀ t : Fin cfg1.N, cond1_1 (grid1.coords t) ↔ t.val % 7 = 6 :=
  (by decide +kernel : ∀ t : Fin grid1.N, cond1_1 (grid1.coords t) ↔ t.val % 7 = 6)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last block the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is stored into. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator's scratch buffer. -/
abbrev scM1 : Memref sig .tc .vmem S512x1024 .f32 := Memref.whole cc1_scratch0

/-- The core's scoped buffers other than this region's staging buffers: the accumulator's scratch, owned at some
    contents, beside all the others left unopened. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM1, owns_whole]; try rfl

/-- The region's entry invariant with the accumulator's scratch named. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]

/-! ## The body, case by case -/

set_option maxHeartbeats 1000000 in
/-- FIRST block (`k = 0`): the accumulator, found at anything, is reset to zero and the first partial product added;
    the output buffer is not touched. -/
theorem sound1_first (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : cond1_0 i) (hc1 : ¬cond1_1 i)
    (x0 : Vec F S512x1024 .bf16) (x1 : Vec F S1024x1024 .bf16) (xi : Vec F S512x1024 .f32) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 k1_pay1 x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero hz inb_S512x1024_S512x1024_0_0 y⟩), View.canon_cons_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 1000000 in
/-- A MIDDLE block (`0 < k < 6`): the partial product is added to the accumulator as found; the output buffer is not touched. -/
theorem sound1_mid (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : ¬cond1_0 i) (hc1 : ¬cond1_1 i)
    (x0 : Vec F S512x1024 .bf16) (x1 : Vec F S1024x1024 .bf16) (xi : Vec F S512x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 xs x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (fun y => ⟨_, List.mem_singleton_self _, View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 1000000 in
/-- The LAST block (`k = 6`): the partial product is added to the accumulator as found, and the sum is also stored
    into the output buffer, found at anything. -/
theorem sound1_last (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : ¬cond1_0 i) (hc1 : cond1_1 i)
    (x0 : Vec F S512x1024 .bf16) (x1 : Vec F S1024x1024 .bf16) (xs : Vec F S512x1024 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 xs x0 x1) ∗ owns (c : Thread nD τ) arg6 fullShare (k1_pay2 xs x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS
  ipureintro
  sl_unfold_words
  rw [View.read_writes_eq_canon _ _ _ (fun y => ⟨_, List.mem_cons.mpr (Or.inl rfl), View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

/-! ## The accumulator after each position -/

/-- What the scratch accumulator holds after the body at position `n`: at a first block the first partial product
    over zero, otherwise the position's partial product over what the position before left. -/
def acc1 (c : Dev nD) : (n : ℕ) → n < cfg1.N → Vec F S512x1024 .f32
  | 0, hn => k1_pay2 k1_pay1 (iblk1 V c 0 ⟨0, hn⟩) (iblk1 V c 1 ⟨0, hn⟩)
  | n + 1, hn =>
    if (n + 1) % 7 = 0 then k1_pay2 k1_pay1 (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At a first block. -/
theorem acc1_first (c : Dev nD) (t : Fin cfg1.N) (h : t.val % 7 = 0) :
    acc1 V c t.val t.isLt = k1_pay2 k1_pay1 (iblk1 V c 0 t) (iblk1 V c 1 t) := by
  obtain ⟨n, hn⟩ := t
  cases n with
  | zero => rfl
  | succ n => exact (if_pos h).trans rfl

/-- At any other block: over what the position before left. -/
theorem acc1_step (c : Dev nD) (t : Fin cfg1.N) (h : ¬t.val % 7 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-! ## The invariant and the proof data -/

/-- The region's invariant before position `n`: before the first, the entry invariant (every scratch at anything);
    afterwards the accumulator's scratch at what the position before left, the other scoped buffers unopened, the
    generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this pipeline on core `c`: the arrays as the region finds them; after the body each input's
    buffer at its block and the output's at the accumulator (read only where the block is written back: at a last
    block); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at position `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any position: `t mod 7` says which case the position is in; the invariant hands the body the
    accumulator at what the position before left (at anything before the first position and at every first block,
    where it is reset), and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 112 := lt_of_lt_of_eq t.isLt (show cfg1.N = 112 from N_1)
  by_cases h0 : t.val % 7 = 0
  · have h1 : ¬t.val % 7 = 6 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply (sound1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply (sound1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_step V c t h0]
    rw [PhiS1_castSucc V c t, PhiS1_pos V c _ _ hz]
    by_cases h1 : t.val % 7 = 6
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_step V c t h0]
      iintro ⟨⟨⟨HS, Hrest⟩, Hg⟩, Ho, ⟨%d0, H0⟩, ⟨%d1, H1⟩, ⟨%d2, H2⟩⟩
      iapply (sound1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS, Hrest⟩, Hg⟩, Ho, ⟨%d0, H0⟩, ⟨%d1, H1⟩, ⟨%d2, H2⟩⟩
      iapply (sound1_mid c Set.univ (grid1.coords t) _ _ _ _ _ _ _ _ hc0 hc1 (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the entry invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 112 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]; · iexists _; iexact HS
    iexact Hrest
  iexact Hg

end Region1

end Cert.Kernel.Fr

end
-- ==== Proof.KRun.lean ====
/-
  The whole program as one run.  @main is: the host operations that cast the activations and rebuild the three
  weights from their quantized values and tile scales; the first pallas_call; the second pallas_call.  Between
  these items a core's unscoped buffers are held at named contents: `W0` as launched, `W1` after the host
  operations, `W2` after the first call (its four arrays at what its write-backs leave, every other buffer as
  before), `W3` after the second.  Each call is entered with the generator register at some state and nothing owed,
  and left the same way; its scratch accumulators are scoped buffers and do not outlive it.  One launch over these
  three items gives: every weakly fair execution terminates and every unscoped buffer ends at `W3`.  Read at an
  argument, `W3` is the launch contents (no item writes an argument): the frame.  Read at the result buffer, it is
  what the second call's write-backs leave: the value the certificate's equivalence claim is about.
-/
import proofs.«156519_j90640989814791_1_alg».proof.Proof.KFr0
import proofs.«156519_j90640989814791_1_alg».proof.Proof.KFr1
import proofs.«156519_j90640989814791_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- Core `c`'s buffers at launch. -/
abbrev W0 : Dev nD → Valuation τ sig (Elt F) := fun c b => m (c, b)
/-- After the host operations (the first call's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A buffer that is no array of either call and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans (V1_of m c b hh))

theorem W3_main_arg0 (c : Dev nD) : W3 m c (Proc.devRef .tc main_arg0) = m ((c : Thread nD τ).loc main_arg0) := W3_untouched m c main_arg0 (by decide) (by decide) (by decide)
theorem W3_main_arg1 (c : Dev nD) : W3 m c (Proc.devRef .tc main_arg1) = m ((c : Thread nD τ).loc main_arg1) := W3_untouched m c main_arg1 (by decide) (by decide) (by decide)
theorem W3_main_arg2 (c : Dev nD) : W3 m c (Proc.devRef .tc main_arg2) = m ((c : Thread nD τ).loc main_arg2) := W3_untouched m c main_arg2 (by decide) (by decide) (by decide)
theorem W3_main_arg3 (c : Dev nD) : W3 m c (Proc.devRef .tc main_arg3) = m ((c : Thread nD τ).loc main_arg3) := W3_untouched m c main_arg3 (by decide) (by decide) (by decide)
theorem W3_main_arg4 (c : Dev nD) : W3 m c (Proc.devRef .tc main_arg4) = m ((c : Thread nD τ).loc main_arg4) := W3_untouched m c main_arg4 (by decide) (by decide) (by decide)
theorem W3_main_arg5 (c : Dev nD) : W3 m c (Proc.devRef .tc main_arg5) = m ((c : Thread nD τ).loc main_arg5) := W3_untouched m c main_arg5 (by decide) (by decide) (by decide)
theorem W3_main_arg6 (c : Dev nD) : W3 m c (Proc.devRef .tc main_arg6) = m ((c : Thread nD τ).loc main_arg6) := W3_untouched m c main_arg6 (by decide) (by decide) (by decide)

/-- The result buffer ends at what the second call's write-backs leave in its output array. -/
theorem W3_main_v23 (c : Dev nD) : W3 m c (Proc.devRef .tc main_v23) = (dat1 (V2 m) c).arrAt 2 cfg1.N := W3_arr m c 2

/-- The first call's output array is the second call's first input array, as the first call left it. -/
theorem W2_main_v22 (c : Dev nD) : W2 m c (Proc.devRef .tc main_v22) = (dat0 (V1 m) c).arrAt 3 cfg0.N := W2_arr m c 3
/-- The second call's weight array is as the host operations left it. -/
theorem W2_main_v21 (c : Dev nD) : W2 m c (Proc.devRef .tc main_v21) = W1 m c (Proc.devRef .tc main_v21) := W2_of_ne m c main_v21 (by decide)

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The host operations as a segment from the launch contents. -/
abbrev hostSeg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The FIRST call: entered from every unscoped buffer at `W1`, left at `W2`. Its arrays are split out of the unscoped
    buffers and put back at their exit contents; the generator register goes into the invariant and comes back;
    nothing is owed; the kernel has no semaphore of its own. -/
def regn0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND call: entered from every unscoped buffer at `W2`, left at `W3`. -/
def regn1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev mainSegs : List (Pipeline.Seg (pcfgs (F := F)) adm (pdats m) () defs₀ 𝒱₀ L lv) :=
  [ .host (hostSeg0 m), .region (regn0 m), .region (regn1 m) ]

theorem main_is_segs (c : Dev nD) : main (F := F) c = Pipeline.Seg.run (mainSegs m) :=
  main_segs adm (pdats m) () 𝒱₀ L lv (hostSeg0 m) (regn0 m) (regn1 m) rfl c

set_option backward.isDefEq.respectTransparency.types false in
/-- THE RUN: from any memory with zero counters every weakly fair execution of @main on the TensorCores terminates,
    nothing faulting, and every unscoped buffer of every core ends at `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

/-- THE RUN WITH THE RESULT NAMED: the result buffer ends at what the second call's write-backs leave in its output
    array, and every argument array at its launch contents. -/
theorem run_value : θ_run defs (onTc (τ := τ) (main (F := F))) ⟨m, fun _ => 0, ρ⟩ (fun r => ∀ c : Dev nD,
      r.2.mem ((c.tc : Thread nD τ).loc main_v23) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v23 (by decide))).trans (W3_main_v23 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.Kernel.Fr

end
-- ==== Proof.Fr0.lean ====
/-
  The first pallas_call (`act = (g · σ(g)) · u` with `g = x · W1ᵀ`, `u = x · W3ᵀ`, each accumulated over two blocks
  of 1024 hidden coordinates) as one region of the program, at a parameter `V`: the TensorCore's buffer contents
  when the region is entered.

  The grid is 8 × 7 × 2; its last coordinate `k` is the block of the contracted axis, so grid position `t` has
  `k = t mod 2`.  The body keeps two 512 × 1024 accumulators (for `g` and for `u`) in scratch buffers that live
  across grid positions: at `k = 0` both are reset to zero and the first partial products added; at `k = 1` the
  second partial products are added to what the position before left, and the gated activation of the two sums is
  stored into the output block, which the pipeline then writes back.  `gu0` is the pair of accumulators after each
  position; the invariant `PhiS0` carries the two scratch buffers at `gu0` of the position before; the output
  window is idle (handed back untouched) at every position with `k = 0`.
-/
import proofs.«156519_j90640989814791_1_alg».proof.Proof.Gen.KernelIdeal.Launch
import proofs.«156519_j90640989814791_1_alg».proof.Proof.Gen.KernelIdeal.Skeleton
import proofs.«156519_j90640989814791_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds its block at every position (fetched at each, never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first block of the contracted axis" (`k = 0`), as the body computes it. -/
abbrev cond0_0 (i : grid0.Coords) : Prop := (Scalar.cmpi .ne (Scalar.extui (Scalar.cmpi .eq (BitVec.ofNat 32 (i 2).val) 0#32)) 0#32) = 1#1
/-- It holds at the even positions. -/
theorem hcond0_0 : ∀ t : Fin cfg0.N, cond0_0 (grid0.coords t) ↔ t.val % 2 = 0 :=
  (by decide +kernel : ∀ t : Fin grid0.N, cond0_0 (grid0.coords t) ↔ t.val % 2 = 0)
/-- "This is the last block of the contracted axis" (`k = 1`). -/
abbrev cond0_1 (i : grid0.Coords) : Prop := k0_cond2 i = 1#1
/-- It holds at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first block the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a last block it is stored into. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The two accumulators' scratch buffers (for `g` and for `u`). -/
abbrev scM0_0 : Memref sig .tc .vmem S512x1024 .f32 := Memref.whole cc0_scratch0
abbrev scM0_1 : Memref sig .tc .vmem S512x1024 .f32 := Memref.whole cc0_scratch1

/-- The core's scoped buffers other than this region's staging buffers: the two accumulators' scratch, owned at
    some contents, beside all the others left unopened. -/
theorem scopedRest0_split (c : Dev nD) :
    (Pipeline.scopedRest (Ix := Unit) (Name := ℕ) (U := UR sig nD τ) (Lvl := ℕ) (Val := Elt F) spec0 c : sProp 𝕄)
      = iprop(((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) := by
  rw [Pipeline.scopedRest_split_of_list spec0 c [cc0_scratch0, cc0_scratch1] (by decide) (by decide)]
  simp only [scM0_0, scM0_1, owns_whole]; try rfl

/-- The region's entry invariant with the accumulators' scratch named. -/
theorem PhiA0_eq (c : Dev nD) :
    (Pipeline.ΦA spec0 c : sProp 𝕄)
      = iprop(iprop(((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]

/-! ## The body, case by case -/

set_option maxHeartbeats 2000000 in
/-- FIRST block (`k = 0`): both accumulators, found at anything, are reset to zero and the first partial products
    added; the output buffer is not touched. -/
theorem sound0_first (c : Dev nD) (E : Set ℕ) (i : grid0.Coords)
    (arg3 : Memref sig .tc .vmem S512x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : cond0_0 i) (hc1 : ¬cond0_1 i)
    (x0 : Vec F S512x1024 .bf16) (x1 : Vec F S1024x1024 .bf16) (x2 : Vec F S1024x1024 .bf16) (xi : Vec F S512x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi
            ∗ owns (c : Thread nD τ) arg7 fullShare (k0_pay3 k0_pay1 x0 x1) ∗ owns (c : Thread nD τ) arg8 fullShare (k0_pay4 k0_pay2 x0 x2)) -∗ K ⟨⟩))
      ⊢ wp frame (wpE (defs₀ (F := F)) Variants.none c none) E (cc0__gemm13_act_kernel i arg3 harg3 arg4 harg4 arg5 harg5 arg6 harg6 arg7 harg7 arg8 harg8) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%f3, %hf3, H3⟩, ⟨%ds7, %fs7, -, HS7⟩, ⟨%ds8, %fs8, -, HS8⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS7]
  · iexists _; isplitr
    swap; · iexact HS7
    ipureintro
    sl_unfold_words
    rw [View.read_writes_eq_canon _ _ _ (fun y => ⟨_, List.mem_cons.mpr (Or.inl rfl), View.mem_set_unit_zero hz inb_S512x1024_S512x1024_0_0 y⟩), View.canon_cons_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS8
  ipureintro
  sl_unfold_words
  rw [View.read_writes_eq_canon _ _ _ (fun y => ⟨_, List.mem_cons.mpr (Or.inl rfl), View.mem_set_unit_zero hz inb_S512x1024_S512x1024_0_0 y⟩), View.canon_cons_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 2000000 in
/-- LAST block (`k = 1`): the second partial products are added to the accumulators as found, and the gated activation of
    the two sums is stored into the output buffer, found at anything. -/
theorem sound0_last (c : Dev nD) (E : Set ℕ) (i : grid0.Coords)
    (arg3 : Memref sig .tc .vmem S512x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S512x1024 .bf16) (harg6 : arg6.IsWhole)
    (arg7 : Memref sig .tc .vmem S512x1024 .f32) (harg7 : arg7.IsWhole) (arg8 : Memref sig .tc .vmem S512x1024 .f32) (harg8 : arg8.IsWhole)
    (hc0 : ¬cond0_0 i) (hc1 : cond0_1 i)
    (x0 : Vec F S512x1024 .bf16) (x1 : Vec F S1024x1024 .bf16) (x2 : Vec F S1024x1024 .bf16) (xs7 : Vec F S512x1024 .f32) (xs8 : Vec F S512x1024 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare xs7 ∗ owns (c : Thread nD τ) arg8 fullShare xs8
        ∗ (iprop(owns (c : Thread nD τ) arg3 fullShare x0 ∗ owns (c : Thread nD τ) arg4 fullShare x1 ∗ owns (c : Thread nD τ) arg5 fullShare x2
            ∗ owns (c : Thread nD τ) arg6 fullShare (k0_pay5 (k0_pay3 xs7 x0 x1) (k0_pay4 xs8 x0 x2))
            ∗ owns (c : Thread nD τ) arg7 fullShare (k0_pay3 xs7 x0 x1) ∗ owns (c : Thread nD τ) arg8 fullShare (k0_pay4 xs8 x0 x2)) -∗ K ⟨⟩))
      ⊢ wp frame (wpE (defs₀ (F := F)) Variants.none c none) E (cc0__gemm13_act_kernel i arg3 harg3 arg4 harg4 arg5 harg5 arg6 harg6 arg7 harg7 arg8 harg8) K := by
  simp only [cc0__gemm13_act_kernel_eq_skeleton]; unfold cc0__gemm13_act_kernel_skel
  unfold owns
  iintro ⟨⟨%f0, %hf0, H0⟩, ⟨%f1, %hf1, H1⟩, ⟨%f2, %hf2, H2⟩, ⟨%d3, %f3, -, H3⟩, ⟨%fs7, %hfs7, HS7⟩, ⟨%fs8, %hfs8, HS8⟩, Hk⟩
  obtain rfl := harg3.eq_unread hf0; obtain rfl := harg4.eq_unread hf1; obtain rfl := harg5.eq_unread hf2
  obtain rfl := harg7.eq_unread hfs7; obtain rfl := harg8.eq_unread hfs8
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  isplitl [HS7]
  · iexists _; isplitr
    swap; · iexact HS7
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS8
  ipureintro
  sl_unfold_words
  rw [View.read_writes_eq_canon _ _ _ (fun y => ⟨_, List.mem_cons.mpr (Or.inl rfl), View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

/-! ## The accumulators after each position -/

/-- What the two scratch accumulators hold after the body at position `n` (the one for `g`, the one for `u`): at a
    first block the first partial products over zero, otherwise the position's partial products over what the
    position before left. -/
def gu0 (c : Dev nD) : (n : ℕ) → n < cfg0.N → Vec F S512x1024 .f32 × Vec F S512x1024 .f32
  | 0, hn => (k0_pay3 k0_pay1 (iblk0 V c 0 ⟨0, hn⟩) (iblk0 V c 1 ⟨0, hn⟩), k0_pay4 k0_pay2 (iblk0 V c 0 ⟨0, hn⟩) (iblk0 V c 2 ⟨0, hn⟩))
  | n + 1, hn =>
    if (n + 1) % 2 = 0 then (k0_pay3 k0_pay1 (iblk0 V c 0 ⟨n + 1, hn⟩) (iblk0 V c 1 ⟨n + 1, hn⟩), k0_pay4 k0_pay2 (iblk0 V c 0 ⟨n + 1, hn⟩) (iblk0 V c 2 ⟨n + 1, hn⟩))
    else (k0_pay3 (gu0 c n (Nat.lt_of_succ_lt hn)).1 (iblk0 V c 0 ⟨n + 1, hn⟩) (iblk0 V c 1 ⟨n + 1, hn⟩),
          k0_pay4 (gu0 c n (Nat.lt_of_succ_lt hn)).2 (iblk0 V c 0 ⟨n + 1, hn⟩) (iblk0 V c 2 ⟨n + 1, hn⟩))

/-- At a first block. -/
theorem gu0_first (c : Dev nD) (t : Fin cfg0.N) (h : t.val % 2 = 0) :
    gu0 V c t.val t.isLt = (k0_pay3 k0_pay1 (iblk0 V c 0 t) (iblk0 V c 1 t), k0_pay4 k0_pay2 (iblk0 V c 0 t) (iblk0 V c 2 t)) := by
  obtain ⟨n, hn⟩ := t
  cases n with
  | zero => rfl
  | succ n => exact (if_pos h).trans rfl

/-- At a last block: over what the position before left. -/
theorem gu0_step (c : Dev nD) (t : Fin cfg0.N) (h : ¬t.val % 2 = 0) :
    gu0 V c t.val t.isLt
      = (k0_pay3 (gu0 V c (t.val - 1) (Nat.lt_of_le_of_lt (Nat.sub_le _ _) t.isLt)).1 (iblk0 V c 0 t) (iblk0 V c 1 t),
         k0_pay4 (gu0 V c (t.val - 1) (Nat.lt_of_le_of_lt (Nat.sub_le _ _) t.isLt)).2 (iblk0 V c 0 t) (iblk0 V c 2 t)) := by
  obtain ⟨n, hn⟩ := t
  cases n with
  | zero => exact absurd (Nat.zero_mod _) h
  | succ n => exact (if_neg h).trans rfl

/-- What the output block's staging buffer holds after the body at a last block: the gated activation of the two sums. -/
def o0 (c : Dev nD) (n : ℕ) (hn : n < cfg0.N) : Vec F S512x1024 .bf16 :=
  k0_pay5 (gu0 V c n hn).1 (gu0 V c n hn).2

/-! ## The invariant and the proof data -/

/-- The region's invariant before position `n`: before the first, the entry invariant (every scratch at anything);
    afterwards the two accumulators' scratch at what the position before left, the other scoped buffers unopened,
    the generator register at some state. -/
def PhiS0 (c : Dev nD) : (n : ℕ) → n ≤ cfg0.N → sProp 𝕄
  | 0, _ => Pipeline.ΦA spec0 c
  | n + 1, hn => iprop(iprop((owns (c : Thread nD τ) scM0_0 fullShare (gu0 V c n hn).1 ∗ owns (c : Thread nD τ) scM0_1 fullShare (gu0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop((owns (c : Thread nD τ) scM0_0 fullShare (gu0 V c n hn).1 ∗ owns (c : Thread nD τ) scM0_1 fullShare (gu0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop((owns (c : Thread nD τ) scM0_0 fullShare (gu0 V c (n - 1) (by omega)).1 ∗ owns (c : Thread nD τ) scM0_1 fullShare (gu0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The proof data of this pipeline on core `c`: the arrays as the region finds them; after the body each input's
    buffer at its block and the output's at the gated activation of the accumulators (read only where the block is
    written back: at a last block); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => o0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = o0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any position: the parity of `t` says which case the position is in; the invariant hands the body
    the accumulators at what the position before left (at anything at a first block, where they are reset), and
    takes them back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 112 := lt_of_lt_of_eq t.isLt (show cfg0.N = 112 from N_0)
  by_cases h0 : t.val % 2 = 0
  · have h1 : ¬t.val % 2 = 1 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [gu0_first V c t h0]
    by_cases hz : t.val = 0
    · rw [PhiS0_castSucc V c t, PhiS0_zero V c _ _ hz, PhiA0_eq]
      iintro ⟨⟨⟨⟨HS7, HS8⟩, Hrest⟩, Hg⟩, Ho, ⟨%d0, H0⟩, ⟨%d1, H1⟩, ⟨%d2, H2⟩, ⟨%d3, H3⟩⟩
      iapply (sound0_first c Set.univ (grid0.coords t) _ _ _ _ _ _ _ _ _ _ _ _ hc0 hc1 (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS7]; · iexact HS7
      isplitl [HS8]; · iexact HS8
      iintro ⟨H0, H1, H2, H3, HS7, HS8⟩
      isplitl [HS7 HS8 Hrest Hg]
      · isplitl [HS7 HS8 Hrest]
        · isplitl [HS7 HS8]
          · isplitl [HS7]; · iexact HS7
            iexact HS8
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨⟨HS7, HS8⟩, Hrest⟩, Hg⟩, Ho, ⟨%d0, H0⟩, ⟨%d1, H1⟩, ⟨%d2, H2⟩, ⟨%d3, H3⟩⟩
      iapply (sound0_first c Set.univ (grid0.coords t) _ _ _ _ _ _ _ _ _ _ _ _ hc0 hc1 (iblk0 V c 0 t) (iblk0 V c 1 t) (iblk0 V c 2 t) ((dat0 V c).before 3 t d3) _)
      isplitl [H0]; · iexact H0
      isplitl [H1]; · iexact H1
      isplitl [H2]; · iexact H2
      isplitl [H3]; · iexact H3
      isplitl [HS7]; · iexists _; iexact HS7
      isplitl [HS8]; · iexists _; iexact HS8
      iintro ⟨H0, H1, H2, H3, HS7, HS8⟩
      isplitl [HS7 HS8 Hrest Hg]
      · isplitl [HS7 HS8 Hrest]
        · isplitl [HS7 HS8]
          · isplitl [HS7]; · iexact HS7
            iexact HS8
          iexact Hrest
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have h1 : t.val % 2 = 1 := by omega
    have hc0 : ¬cond0_0 (grid0.coords t) := fun h => h0 ((hcond0_0 t).mp h)
    have hc1 : cond0_1 (grid0.coords t) := (hcond0_1 t).mpr h1
    rw [show (dat0 V c).leavesExact 3 t = owns (c : Thread nD τ) (ms0_3 t) fullShare ((dat0 V c).after 3 t) from by
      unfold Dat.leavesExact; rw [liveAt0_3 t hc1], after0_3]
    unfold o0
    rw [gu0_step V c t h0]
    rw [PhiS0_castSucc V c t, PhiS0_pos V c _ _ hz]
    iintro ⟨⟨⟨⟨HS7, HS8⟩, Hrest⟩, Hg⟩, Ho, ⟨%d0, H0⟩, ⟨%d1, H1⟩, ⟨%d2, H2⟩, ⟨%d3, H3⟩⟩
    iapply (sound0_last c Set.univ (grid0.coords t) _ _ _ _ _ _ _ _ _ _ _ _ hc0 hc1 (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [HS7]; · iexact HS7
    isplitl [HS8]; · iexact HS8
    iintro ⟨H0, H1, H2, H3, HS7, HS8⟩
    isplitl [HS7 HS8 Hrest Hg]
    · isplitl [HS7 HS8 Hrest]
      · isplitl [HS7 HS8]
        · isplitl [HS7]; · iexact HS7
          iexact HS8
        iexact Hrest
      iexact Hg
    isplitl [Ho]; · iexact Ho
    isplitl [H0]; · iexact H0
    isplitl [H1]; · iexact H1
    isplitl [H2]; · iexact H2
    iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives the entry invariant back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 112 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨⟨HS7, HS8⟩, Hrest⟩, Hg⟩
  isplitl [HS7 HS8 Hrest]
  · isplitl [HS7 HS8]
    · isplitl [HS7]; · iexists _; iexact HS7
      iexists _; iexact HS8
    iexact Hrest
  iexact Hg

end Region0

end Cert.KernelIdeal.Fr

end
-- ==== Proof.Fr1.lean ====
/-
  The second pallas_call (`out = act · W2ᵀ`, accumulated over seven blocks of 1024 inner coordinates) as one
  region of the program, at a parameter `V`: the TensorCore's buffer contents when the region is entered.

  The grid is 8 × 2 × 7; its last coordinate `k` is the block of the contracted axis, so grid position `t` has
  `k = t mod 7`.  The body keeps a 512 × 1024 accumulator in a scratch buffer that lives across grid positions:
  at `k = 0` it is reset to zero and the first partial product is added; at every later `k` the partial
  product of the position's two input blocks is added to what the position before left; at `k = 6` the
  accumulator is also stored into the output block, which the pipeline then writes back.  `acc1` is that
  accumulator after each position, by recursion on the position; the invariant `PhiS1` carries the scratch buffer
  at `acc1` of the position before; the output window is idle (handed back untouched) at every position with
  `k ≠ 6`.  The body's three control cases are run once each (`sound1_first`, `sound1_mid`, `sound1_last`), and
  the obligation at a position picks its case from `t mod 7`.
-/
import proofs.«156519_j90640989814791_1_alg».proof.Proof.Gen.KernelIdeal.Launch
import proofs.«156519_j90640989814791_1_alg».proof.Proof.Gen.KernelIdeal.Skeleton
import proofs.«156519_j90640989814791_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's staging buffer holds its block at every position (it is fetched at each, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds its block at every position. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first block of the contracted axis" (`k = 0`), as the body computes it. -/
abbrev cond1_0 (i : grid1.Coords) : Prop := (Scalar.cmpi .ne (Scalar.extui (Scalar.cmpi .eq (BitVec.ofNat 32 (i 2).val) 0#32)) 0#32) = 1#1
/-- It holds at the positions ≡ 0 (mod 7). -/
theorem hcond1_0 : ∀ t : Fin cfg1.N, cond1_0 (grid1.coords t) ↔ t.val % 7 = 0 :=
  (by decide +kernel : ∀ t : Fin grid1.N, cond1_0 (grid1.coords t) ↔ t.val % 7 = 0)
/-- "This is the last block of the contracted axis" (`k = 6`). -/
abbrev cond1_1 (i : grid1.Coords) : Prop := k1_cond2 i = 1#1
/-- It holds at the positions ≡ 6 (mod 7). -/
theorem hcond1_1 : ∀ t : Fin cfg1.N, cond1_1 (grid1.coords t) ↔ t.val % 7 = 6 :=
  (by decide +kernel : ∀ t : Fin grid1.N, cond1_1 (grid1.coords t) ↔ t.val % 7 = 6)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last block the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is stored into. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
/-- The accumulator's scratch buffer. -/
abbrev scM1 : Memref sig .tc .vmem S512x1024 .f32 := Memref.whole cc1_scratch0

/-- The core's scoped buffers other than this region's staging buffers: the accumulator's scratch, owned at some
    contents, beside all the others left unopened. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM1, owns_whole]; try rfl

/-- The region's entry invariant with the accumulator's scratch named. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]

/-! ## The body, case by case -/

set_option maxHeartbeats 1000000 in
/-- FIRST block (`k = 0`): the accumulator, found at anything, is reset to zero and the first partial product added;
    the output buffer is not touched. -/
theorem sound1_first (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : cond1_0 i) (hc1 : ¬cond1_1 i)
    (x0 : Vec F S512x1024 .bf16) (x1 : Vec F S1024x1024 .bf16) (xi : Vec F S512x1024 .f32) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 k1_pay1 x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero hz inb_S512x1024_S512x1024_0_0 y⟩), View.canon_cons_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 1000000 in
/-- A MIDDLE block (`0 < k < 6`): the partial product is added to the accumulator as found; the output buffer is not touched. -/
theorem sound1_mid (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : ¬cond1_0 i) (hc1 : ¬cond1_1 i)
    (x0 : Vec F S512x1024 .bf16) (x1 : Vec F S1024x1024 .bf16) (xi : Vec F S512x1024 .f32) (xs : Vec F S512x1024 .f32) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 xs x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (fun y => ⟨_, List.mem_singleton_self _, View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

set_option maxHeartbeats 1000000 in
/-- The LAST block (`k = 6`): the partial product is added to the accumulator as found, and the sum is also stored
    into the output buffer, found at anything. -/
theorem sound1_last (c : Dev nD) (E : Set ℕ) (i : grid1.Coords)
    (arg3 : Memref sig .tc .vmem S512x1024 .bf16) (harg3 : arg3.IsWhole) (arg4 : Memref sig .tc .vmem S1024x1024 .bf16) (harg4 : arg4.IsWhole)
    (arg5 : Memref sig .tc .vmem S512x1024 .f32) (harg5 : arg5.IsWhole) (arg6 : Memref sig .tc .vmem S512x1024 .f32) (harg6 : arg6.IsWhole)
    (hc0 : ¬cond1_0 i) (hc1 : cond1_1 i)
    (x0 : Vec F S512x1024 .bf16) (x1 : Vec F S1024x1024 .bf16) (xs : Vec F S512x1024 .f32) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 xs x0 x1) ∗ owns (c : Thread nD τ) arg6 fullShare (k1_pay2 xs x0 x1)) -∗ K ⟨⟩))
      ⊢ wp frame (wpE (defs₀ (F := F)) Variants.none c none) E (cc1__gemm2_kernel i arg3 harg3 arg4 harg4 arg5 harg5 arg6 harg6) K := by
  simp only [cc1__gemm2_kernel_eq_skeleton]; unfold cc1__gemm2_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  have hz : (![0, 0] : Fin S512x1024.rank → Nat) = fun _ => 0 := by funext a; fin_cases a <;> rfl
  have hz' : (![0, 0] : Fin S1024x1024.rank → Nat) = fun _ => 0 := by funext a; fin_cases a <;> rfl
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz inb_S512x1024_S512x1024_0_0 y⟩), View.canon_unit_zero hz]
    simp only [View.readAt_eq_ld, Memref.IsWhole.read_unread, View.ld_unit_zero (S := S512x1024) hz, View.ld_unit_zero (S := S1024x1024) hz', View.readCov_unit_zero (S := S512x1024) _ hz]
  iexists _; isplitr
  swap; · iexact HS
  ipureintro
  sl_unfold_words
  rw [View.read_writes_eq_canon _ _ _ (fun y => ⟨_, List.mem_cons.mpr (Or.inl rfl), View.mem_set_unit_zero hz inb_S512x1024_S512x1024_0_0 y⟩), View.canon_unit_zero hz]
  simp only [View.readAt_eq_ld, Memref.IsWhole.read_unread, View.ld_unit_zero (S := S512x1024) hz, View.ld_unit_zero (S := S1024x1024) hz', View.readCov_unit_zero (S := S512x1024) _ hz]

/-! ## The accumulator after each position -/

/-- What the scratch accumulator holds after the body at position `n`: at a first block the first partial product
    over zero, otherwise the position's partial product over what the position before left. -/
def acc1 (c : Dev nD) : (n : ℕ) → n < cfg1.N → Vec F S512x1024 .f32
  | 0, hn => k1_pay2 k1_pay1 (iblk1 V c 0 ⟨0, hn⟩) (iblk1 V c 1 ⟨0, hn⟩)
  | n + 1, hn =>
    if (n + 1) % 7 = 0 then k1_pay2 k1_pay1 (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

/-- At a first block. -/
theorem acc1_first (c : Dev nD) (t : Fin cfg1.N) (h : t.val % 7 = 0) :
    acc1 V c t.val t.isLt = k1_pay2 k1_pay1 (iblk1 V c 0 t) (iblk1 V c 1 t) := by
  obtain ⟨n, hn⟩ := t
  cases n with
  | zero => rfl
  | succ n => exact (if_pos h).trans rfl

/-- At any other block: over what the position before left. -/
theorem acc1_step (c : Dev nD) (t : Fin cfg1.N) (h : ¬t.val % 7 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact (if_neg h).trans rfl

/-! ## The invariant and the proof data -/

/-- The region's invariant before position `n`: before the first, the entry invariant (every scratch at anything);
    afterwards the accumulator's scratch at what the position before left, the other scoped buffers unopened, the
    generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this pipeline on core `c`: the arrays as the region finds them; after the body each input's
    buffer at its block and the output's at the accumulator (read only where the block is written back: at a last
    block); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at position `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any position: `t mod 7` says which case the position is in; the invariant hands the body the
    accumulator at what the position before left (at anything before the first position and at every first block,
    where it is reset), and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 112 := lt_of_lt_of_eq t.isLt (show cfg1.N = 112 from N_1)
  by_cases h0 : t.val % 7 = 0
  · have h1 : ¬t.val % 7 = 6 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply (sound1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply (sound1_first c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_step V c t h0]
    rw [PhiS1_castSucc V c t, PhiS1_pos V c _ _ hz]
    by_cases h1 : t.val % 7 = 6
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_step V c t h0]
      iintro ⟨⟨⟨HS, Hrest⟩, Hg⟩, Ho, ⟨%d0, H0⟩, ⟨%d1, H1⟩, ⟨%d2, H2⟩⟩
      iapply (sound1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS, Hrest⟩, Hg⟩, Ho, ⟨%d0, H0⟩, ⟨%d1, H1⟩, ⟨%d2, H2⟩⟩
      iapply (sound1_mid c Set.univ (grid1.coords t) _ _ _ _ _ _ _ _ hc0 hc1 (iblk1 V c 0 t) (iblk1 V c 1 t) ((dat1 V c).before 2 t d2) _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the entry invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 112 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]; · iexists _; iexact HS
    iexact Hrest
  iexact Hg

end Region1

end Cert.KernelIdeal.Fr

end
-- ==== Proof.Run.lean ====
/-
  The whole program as one run.  @main is: the host operations that cast the activations and rebuild the three
  weights from their quantized values and tile scales; the first pallas_call; the second pallas_call.  Between
  these items a core's unscoped buffers are held at named contents: `W0` as launched, `W1` after the host
  operations, `W2` after the first call (its four arrays at what its write-backs leave, every other buffer as
  before), `W3` after the second.  Each call is entered with the generator register at some state and nothing owed,
  and left the same way; its scratch accumulators are scoped buffers and do not outlive it.  One launch over these
  three items gives: every weakly fair execution terminates and every unscoped buffer ends at `W3`.  Read at an
  argument, `W3` is the launch contents (no item writes an argument): the frame.  Read at the result buffer, it is
  what the second call's write-backs leave: the value the certificate's equivalence claim is about.
-/
import proofs.«156519_j90640989814791_1_alg».proof.Proof.Fr0
import proofs.«156519_j90640989814791_1_alg».proof.Proof.Fr1
import proofs.«156519_j90640989814791_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- Core `c`'s buffers at launch. -/
abbrev W0 : Dev nD → Valuation τ sig (Elt F) := fun c b => m (c, b)
/-- After the host operations (the first call's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- A buffer that is no array of either call and that no host operation writes ends as launched. -/
theorem W3_untouched (c : Dev nD) (b : Ref sig .tc) (h1 : ∀ w, Pipeline.arrRef spec1 w ≠ b) (h0 : ∀ w, Pipeline.arrRef spec0 w ≠ b)
    (hh : b ∉ hostOps0_W) : W3 m c (Proc.devRef .tc b) = m ((c : Thread nD τ).loc b) :=
  (W3_of_ne m c b h1).trans ((W2_of_ne m c b h0).trans (V1_of m c b hh))

theorem W3_main_arg0 (c : Dev nD) : W3 m c (Proc.devRef .tc main_arg0) = m ((c : Thread nD τ).loc main_arg0) := W3_untouched m c main_arg0 (by decide) (by decide) (by decide)
theorem W3_main_arg1 (c : Dev nD) : W3 m c (Proc.devRef .tc main_arg1) = m ((c : Thread nD τ).loc main_arg1) := W3_untouched m c main_arg1 (by decide) (by decide) (by decide)
theorem W3_main_arg2 (c : Dev nD) : W3 m c (Proc.devRef .tc main_arg2) = m ((c : Thread nD τ).loc main_arg2) := W3_untouched m c main_arg2 (by decide) (by decide) (by decide)
theorem W3_main_arg3 (c : Dev nD) : W3 m c (Proc.devRef .tc main_arg3) = m ((c : Thread nD τ).loc main_arg3) := W3_untouched m c main_arg3 (by decide) (by decide) (by decide)
theorem W3_main_arg4 (c : Dev nD) : W3 m c (Proc.devRef .tc main_arg4) = m ((c : Thread nD τ).loc main_arg4) := W3_untouched m c main_arg4 (by decide) (by decide) (by decide)
theorem W3_main_arg5 (c : Dev nD) : W3 m c (Proc.devRef .tc main_arg5) = m ((c : Thread nD τ).loc main_arg5) := W3_untouched m c main_arg5 (by decide) (by decide) (by decide)
theorem W3_main_arg6 (c : Dev nD) : W3 m c (Proc.devRef .tc main_arg6) = m ((c : Thread nD τ).loc main_arg6) := W3_untouched m c main_arg6 (by decide) (by decide) (by decide)

/-- The result buffer ends at what the second call's write-backs leave in its output array. -/
theorem W3_main_v23 (c : Dev nD) : W3 m c (Proc.devRef .tc main_v23) = (dat1 (V2 m) c).arrAt 2 cfg1.N := W3_arr m c 2

/-- The first call's output array is the second call's first input array, as the first call left it. -/
theorem W2_main_v22 (c : Dev nD) : W2 m c (Proc.devRef .tc main_v22) = (dat0 (V1 m) c).arrAt 3 cfg0.N := W2_arr m c 3
/-- The second call's weight array is as the host operations left it. -/
theorem W2_main_v21 (c : Dev nD) : W2 m c (Proc.devRef .tc main_v21) = W1 m c (Proc.devRef .tc main_v21) := W2_of_ne m c main_v21 (by decide)

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The host operations as a segment from the launch contents. -/
abbrev hostSeg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The FIRST call: entered from every unscoped buffer at `W1`, left at `W2`. Its arrays are split out of the unscoped
    buffers and put back at their exit contents; the generator register goes into the invariant and comes back;
    nothing is owed; the kernel has no semaphore of its own. -/
def regn0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The SECOND call: entered from every unscoped buffer at `W2`, left at `W3`. -/
def regn1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev mainSegs : List (Pipeline.Seg (pcfgs (F := F)) adm (pdats m) () defs₀ 𝒱₀ L lv) :=
  [ .host (hostSeg0 m), .region (regn0 m), .region (regn1 m) ]

theorem main_is_segs (c : Dev nD) : main (F := F) c = Pipeline.Seg.run (mainSegs m) :=
  main_segs adm (pdats m) () 𝒱₀ L lv (hostSeg0 m) (regn0 m) (regn1 m) rfl c

set_option backward.isDefEq.respectTransparency.types false in
/-- THE RUN: from any memory with zero counters every weakly fair execution of @main on the TensorCores terminates,
    nothing faulting, and every unscoped buffer of every core ends at `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

/-- THE RUN WITH THE RESULT NAMED: the result buffer ends at what the second call's write-backs leave in its output
    array, and every argument array at its launch contents. -/
theorem run_value : θ_run defs (onTc (τ := τ) (main (F := F))) ⟨m, fun _ => 0, ρ⟩ (fun r => ∀ c : Dev nD,
      r.2.mem ((c.tc : Thread nD τ).loc main_v23) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v23 (by decide))).trans (W3_main_v23 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Fr

end
-- ==== Proof.Spec.lean ====
/-
  The function both programs compute, stated once over literal shapes, index by index, on the extended reals.

  A weight arrives as a matrix `q` of quantized values and a matrix `s` holding one scale for every 128 × 128 tile
  of `q`; its entry is the product of the quantized value and the scale of the tile the entry lies in
  (`wA` for the two [7168, 2048] weights, `wB` for the [2048, 7168] one).  With `g = x · W1ᵀ` and `u = x · W3ᵀ`
  (`proj`: a row of `x` against a row of the weight, summed over the 2048 hidden coordinates), the gated
  activation is `(g · σ(g)) · u` with `σ` the logistic function (`act`), and the result is that activation
  against the rows of `W2`, summed over the 7168 inner coordinates (`out`, `G`).
-/
import Idealize.ShloMosaic.PureOps.Ideal
import Idealize.ShloMosaic.Lib.ValueIdx

noncomputable section

open scoped BigOperators

namespace Cert.Spec

open Idealize.ShloMosaic Idealize.ShloMosaic.ValueIdx

/-- Entry `(f, h)` of a [7168, 2048] weight: the quantized value times the scale of its 128 × 128 tile. -/
def wA (q : (⟨2, ![7168, 2048]⟩ : Shape).Idx → EReal) (s : (⟨2, ![56, 16]⟩ : Shape).Idx → EReal)
    (f : Fin 7168) (h : Fin 2048) : EReal :=
  q (ix2 f h) * s (ix2 (⟨f.val / 128, by omega⟩ : Fin 56) (⟨h.val / 128, by omega⟩ : Fin 16))

/-- Entry `(h, f)` of the [2048, 7168] weight: the quantized value times the scale of its 128 × 128 tile. -/
def wB (q : (⟨2, ![2048, 7168]⟩ : Shape).Idx → EReal) (s : (⟨2, ![16, 56]⟩ : Shape).Idx → EReal)
    (h : Fin 2048) (f : Fin 7168) : EReal :=
  q (ix2 h f) * s (ix2 (⟨h.val / 128, by omega⟩ : Fin 16) (⟨f.val / 128, by omega⟩ : Fin 56))

/-- Row `t` of `x` against row `f` of a [7168, 2048] weight: the sum over the 2048 hidden coordinates. -/
def proj (x : (⟨2, ![4096, 2048]⟩ : Shape).Idx → EReal) (q : (⟨2, ![7168, 2048]⟩ : Shape).Idx → EReal)
    (s : (⟨2, ![56, 16]⟩ : Shape).Idx → EReal) (t : Fin 4096) (f : Fin 7168) : EReal :=
  ∑ h : Fin 2048, x (ix2 t h) * wA q s f h

/-- The gated activation `(g · σ(g)) · u` at `(t, f)`. -/
def act (x : (⟨2, ![4096, 2048]⟩ : Shape).Idx → EReal)
    (q1 : (⟨2, ![7168, 2048]⟩ : Shape).Idx → EReal) (s1 : (⟨2, ![56, 16]⟩ : Shape).Idx → EReal)
    (q3 : (⟨2, ![7168, 2048]⟩ : Shape).Idx → EReal) (s3 : (⟨2, ![56, 16]⟩ : Shape).Idx → EReal)
    (t : Fin 4096) (f : Fin 7168) : EReal :=
  (proj x q1 s1 t f * Ideal.logistic (proj x q1 s1 t f)) * proj x q3 s3 t f

/-- The result at `(t, h)`: the activation's row `t` against row `h` of the last weight, over the 7168 inner coordinates. -/
def out (x : (⟨2, ![4096, 2048]⟩ : Shape).Idx → EReal)
    (q1 : (⟨2, ![7168, 2048]⟩ : Shape).Idx → EReal) (s1 : (⟨2, ![56, 16]⟩ : Shape).Idx → EReal)
    (q3 : (⟨2, ![7168, 2048]⟩ : Shape).Idx → EReal) (s3 : (⟨2, ![56, 16]⟩ : Shape).Idx → EReal)
    (q2 : (⟨2, ![2048, 7168]⟩ : Shape).Idx → EReal) (s2 : (⟨2, ![16, 56]⟩ : Shape).Idx → EReal)
    (t : Fin 4096) (h : Fin 2048) : EReal :=
  ∑ f : Fin 7168, act x q1 s1 q3 s3 t f * wB q2 s2 h f

/-- The whole result array. -/
def G (x : (⟨2, ![4096, 2048]⟩ : Shape).Idx → EReal)
    (q1 : (⟨2, ![7168, 2048]⟩ : Shape).Idx → EReal) (s1 : (⟨2, ![56, 16]⟩ : Shape).Idx → EReal)
    (q3 : (⟨2, ![7168, 2048]⟩ : Shape).Idx → EReal) (s3 : (⟨2, ![56, 16]⟩ : Shape).Idx → EReal)
    (q2 : (⟨2, ![2048, 7168]⟩ : Shape).Idx → EReal) (s2 : (⟨2, ![16, 56]⟩ : Shape).Idx → EReal) :
    (⟨2, ![4096, 2048]⟩ : Shape).Idx → EReal :=
  fun i => out x q1 s1 q3 s3 q2 s2 (i 0) (i 1)

end Cert.Spec

end
-- ==== Proof.HostVal.lean ====
/-
  What the kernel program's host operations leave, on the extended reals, in the four arrays its two kernels read.

  The input is narrowed to sixteen bits, which on the extended reals changes nothing.  Each weight is built as in
  the specification's description: the [N, K] matrix of quantized values is viewed as [N/128, 128, K/128, 128], multiplied by
  the per-tile scales broadcast along the two axes of length 128, viewed as [N, K] again, transposed and narrowed.
  Entry (n, k) of a row-major [N, K] matrix has flat position n·K + k, and the four-axis view gives that position the
  coordinates (n / 128, n % 128, k / 128, k % 128); so the entry is multiplied by the scale of tile (n / 128, k / 128),
  and the transposed array holds at (k, n) the dequantized entry (n, k).

  Each layout operation is read at an index on its own, over an arbitrary operand; the four results follow by
  composing those readings along the chain of operations that wrote the array.
-/
import proofs.«156519_j90640989814791_1_alg».proof.Proof.Gen.KernelIdeal.Launch
import proofs.«156519_j90640989814791_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.ShloMosaic.ValueIdx
open Idealize.SL Idealize.SL.Sem

/-- The contents of every array of device `c` once the host operations have run, from the contents `m` at entry. -/
abbrev W1 (m : (ℓ : Loc nD τ sig) → Buf (Elt Ideal) ℓ) (c : Dev nD) : Valuation τ sig (Elt Ideal) :=
  StableHlo.after (hostOps0 (F := Ideal)) (fun b => m (c, b))

/-! ## Tile coordinates -/

/-- The four coordinates of entry (f, h) of a [7168, 2048] matrix in its [56, 128, 16, 128] view. -/
abbrev tileA (f : Fin 7168) (h : Fin 2048) : S56x128x16x128.Idx :=
  ix4 (⟨f.val / 128, by omega⟩ : Fin 56) (⟨f.val % 128, Nat.mod_lt _ (by decide)⟩ : Fin 128)
    (⟨h.val / 128, by omega⟩ : Fin 16) (⟨h.val % 128, Nat.mod_lt _ (by decide)⟩ : Fin 128)

/-- The four coordinates of entry (h, f) of a [2048, 7168] matrix in its [16, 128, 56, 128] view. -/
abbrev tileB (h : Fin 2048) (f : Fin 7168) : S16x128x56x128.Idx :=
  ix4 (⟨h.val / 128, by omega⟩ : Fin 16) (⟨h.val % 128, Nat.mod_lt _ (by decide)⟩ : Fin 128)
    (⟨f.val / 128, by omega⟩ : Fin 56) (⟨f.val % 128, Nat.mod_lt _ (by decide)⟩ : Fin 128)

variable {α : Type}

/-! ## Each layout operation at an index -/

/-- A transposed [7168, 2048] array at (h, f) is the array at (f, h). -/
theorem trA_at (y : S7168x2048.Idx → α) (h : Fin 2048) (f : Fin 7168) :
    transpose S2048x7168 [1, 0] y transposes_S7168x2048_S2048x7168_1_0 (ix2 h f) = y (ix2 f h) :=
  transpose_apply [1, 0] y transposes_S7168x2048_S2048x7168_1_0 (ix2 h f) (ix2 f h) (fun b => match b with
    | ⟨0, _⟩ => rfl
    | ⟨1, _⟩ => rfl)

/-- A transposed [2048, 7168] array at (f, h) is the array at (h, f). -/
theorem trB_at (y : S2048x7168.Idx → α) (f : Fin 7168) (h : Fin 2048) :
    transpose S7168x2048 [1, 0] y transposes_S2048x7168_S7168x2048_1_0 (ix2 f h) = y (ix2 h f) :=
  transpose_apply [1, 0] y transposes_S2048x7168_S7168x2048_1_0 (ix2 f h) (ix2 h f) (fun b => match b with
    | ⟨0, _⟩ => rfl
    | ⟨1, _⟩ => rfl)

/-- The four-axis array viewed as [7168, 2048], at (f, h), is the four-axis array at the tile coordinates of (f, h):
    ((f / 128 · 128 + f % 128) · 16 + h / 128) · 128 + h % 128 = 2048 f + h. -/
theorem mergeA_at (y : S56x128x16x128.Idx → α) (f : Fin 7168) (h : Fin 2048) :
    shapeCast S7168x2048 y shapeCasts_S56x128x16x128_S7168x2048 (ix2 f h) = y (tileA f h) :=
  shapeCast_apply y shapeCasts_S56x128x16x128_S7168x2048 (ix2 f h) (tileA f h)
    (by rewrite [Shape.rowMajor_val_four, Shape.rowMajor_val_two]
        have hf := f.isLt
        have hh := h.isLt
        show ((f.val / 128 * 128 + f.val % 128) * 16 + h.val / 128) * 128 + h.val % 128 = f.val * 2048 + h.val
        omega)

/-- The [7168, 2048] array viewed on four axes, at the tile coordinates of (f, h), is the array at (f, h). -/
theorem splitA_at (q : S7168x2048.Idx → α) (f : Fin 7168) (h : Fin 2048) :
    shapeCast S56x128x16x128 q shapeCasts_S7168x2048_S56x128x16x128 (tileA f h) = q (ix2 f h) :=
  shapeCast_apply q shapeCasts_S7168x2048_S56x128x16x128 (tileA f h) (ix2 f h)
    (by rewrite [Shape.rowMajor_val_two, Shape.rowMajor_val_four]
        have hf := f.isLt
        have hh := h.isLt
        show f.val * 2048 + h.val = ((f.val / 128 * 128 + f.val % 128) * 16 + h.val / 128) * 128 + h.val % 128
        omega)

/-- The scales broadcast first to [56, 1, 16, 1] and then along the two unit axes: at the tile coordinates of (f, h)
    the value is the scale of tile (f / 128, h / 128), whatever the coordinates inside the tile. -/
theorem scaleA_at (s : S56x16.Idx → α) (f : Fin 7168) (h : Fin 2048) :
    broadcastInDim S56x128x16x128 ![0, 1, 2, 3] bcast_S56x1x16x1_S56x128x16x128_0_1_2_3
        (broadcastInDim S56x1x16x1 ![0, 2] bcast_S56x16_S56x1x16x1_0_2 s) (tileA f h)
      = s (ix2 (⟨f.val / 128, by omega⟩ : Fin 56) (⟨h.val / 128, by omega⟩ : Fin 16)) := by
  rw [broadcastInDim_apply _ bcast_S56x1x16x1_S56x128x16x128_0_1_2_3 _ (tileA f h)
      (ix4 (⟨f.val / 128, by omega⟩ : Fin 56) (⟨0, Nat.one_pos⟩ : Fin 1) (⟨h.val / 128, by omega⟩ : Fin 16) (⟨0, Nat.one_pos⟩ : Fin 1))
      (fun a => match a with
        | ⟨0, _⟩ => by show f.val / 128 = if (56 : Nat) = 1 then 0 else f.val / 128; rw [if_neg (by decide)]
        | ⟨1, _⟩ => by show 0 = if (1 : Nat) = 1 then 0 else f.val % 128; rw [if_pos rfl]
        | ⟨2, _⟩ => by show h.val / 128 = if (16 : Nat) = 1 then 0 else h.val / 128; rw [if_neg (by decide)]
        | ⟨3, _⟩ => by show 0 = if (1 : Nat) = 1 then 0 else h.val % 128; rw [if_pos rfl])]
  exact broadcastInDim_apply _ bcast_S56x16_S56x1x16x1_0_2 s _ _
      (fun a => match a with
        | ⟨0, _⟩ => by show f.val / 128 = if (56 : Nat) = 1 then 0 else f.val / 128; rw [if_neg (by decide)]
        | ⟨1, _⟩ => by show h.val / 128 = if (16 : Nat) = 1 then 0 else h.val / 128; rw [if_neg (by decide)])

/-- The same three readings for a [2048, 7168] matrix and its [16, 128, 56, 128] view:
    ((h / 128 · 128 + h % 128) · 56 + f / 128) · 128 + f % 128 = 7168 h + f. -/
theorem mergeB_at (y : S16x128x56x128.Idx → α) (h : Fin 2048) (f : Fin 7168) :
    shapeCast S2048x7168 y shapeCasts_S16x128x56x128_S2048x7168 (ix2 h f) = y (tileB h f) :=
  shapeCast_apply y shapeCasts_S16x128x56x128_S2048x7168 (ix2 h f) (tileB h f)
    (by rewrite [Shape.rowMajor_val_four, Shape.rowMajor_val_two]
        have hf := f.isLt
        have hh := h.isLt
        show ((h.val / 128 * 128 + h.val % 128) * 56 + f.val / 128) * 128 + f.val % 128 = h.val * 7168 + f.val
        omega)

/-- The [2048, 7168] array viewed on four axes, at the tile coordinates of (h, f), is the array at (h, f). -/
theorem splitB_at (q : S2048x7168.Idx → α) (h : Fin 2048) (f : Fin 7168) :
    shapeCast S16x128x56x128 q shapeCasts_S2048x7168_S16x128x56x128 (tileB h f) = q (ix2 h f) :=
  shapeCast_apply q shapeCasts_S2048x7168_S16x128x56x128 (tileB h f) (ix2 h f)
    (by rewrite [Shape.rowMajor_val_two, Shape.rowMajor_val_four]
        have hf := f.isLt
        have hh := h.isLt
        show h.val * 7168 + f.val = ((h.val / 128 * 128 + h.val % 128) * 56 + f.val / 128) * 128 + f.val % 128
        omega)

/-- At the tile coordinates of (h, f) the broadcast scales hold the scale of tile (h / 128, f / 128). -/
theorem scaleB_at (s : S16x56.Idx → α) (h : Fin 2048) (f : Fin 7168) :
    broadcastInDim S16x128x56x128 ![0, 1, 2, 3] bcast_S16x1x56x1_S16x128x56x128_0_1_2_3
        (broadcastInDim S16x1x56x1 ![0, 2] bcast_S16x56_S16x1x56x1_0_2 s) (tileB h f)
      = s (ix2 (⟨h.val / 128, by omega⟩ : Fin 16) (⟨f.val / 128, by omega⟩ : Fin 56)) := by
  rw [broadcastInDim_apply _ bcast_S16x1x56x1_S16x128x56x128_0_1_2_3 _ (tileB h f)
      (ix4 (⟨h.val / 128, by omega⟩ : Fin 16) (⟨0, Nat.one_pos⟩ : Fin 1) (⟨f.val / 128, by omega⟩ : Fin 56) (⟨0, Nat.one_pos⟩ : Fin 1))
      (fun a => match a with
        | ⟨0, _⟩ => by show h.val / 128 = if (16 : Nat) = 1 then 0 else h.val / 128; rw [if_neg (by decide)]
        | ⟨1, _⟩ => by show 0 = if (1 : Nat) = 1 then 0 else h.val % 128; rw [if_pos rfl]
        | ⟨2, _⟩ => by show f.val / 128 = if (56 : Nat) = 1 then 0 else f.val / 128; rw [if_neg (by decide)]
        | ⟨3, _⟩ => by show 0 = if (1 : Nat) = 1 then 0 else f.val % 128; rw [if_pos rfl])]
  exact broadcastInDim_apply _ bcast_S16x56_S16x1x56x1_0_2 s _ _
      (fun a => match a with
        | ⟨0, _⟩ => by show h.val / 128 = if (16 : Nat) = 1 then 0 else h.val / 128; rw [if_neg (by decide)]
        | ⟨1, _⟩ => by show f.val / 128 = if (56 : Nat) = 1 then 0 else f.val / 128; rw [if_neg (by decide)])

/-! ## The dequantized, transposed weights as the host operations build them -/

/-- A [7168, 2048] weight dequantized tile by tile, transposed and narrowed. -/
abbrev deqAT (q : FVec Ideal S7168x2048 .f32) (s : FVec Ideal S56x16 .f32) : FVec Ideal S2048x7168 .bf16 :=
  truncf (F := Ideal) .bf16 (transpose S2048x7168 [1, 0]
    (shapeCast S7168x2048
      (mulf (F := Ideal) (φ := .f32) (shapeCast S56x128x16x128 q shapeCasts_S7168x2048_S56x128x16x128)
        (broadcastInDim S56x128x16x128 ![0, 1, 2, 3] bcast_S56x1x16x1_S56x128x16x128_0_1_2_3
          (broadcastInDim S56x1x16x1 ![0, 2] bcast_S56x16_S56x1x16x1_0_2 s)))
      shapeCasts_S56x128x16x128_S7168x2048)
    transposes_S7168x2048_S2048x7168_1_0) bitsLt_bf16_f32

/-- A [2048, 7168] weight dequantized tile by tile, transposed and narrowed. -/
abbrev deqBT (q : FVec Ideal S2048x7168 .f32) (s : FVec Ideal S16x56 .f32) : FVec Ideal S7168x2048 .bf16 :=
  truncf (F := Ideal) .bf16 (transpose S7168x2048 [1, 0]
    (shapeCast S2048x7168
      (mulf (F := Ideal) (φ := .f32) (shapeCast S16x128x56x128 q shapeCasts_S2048x7168_S16x128x56x128)
        (broadcastInDim S16x128x56x128 ![0, 1, 2, 3] bcast_S16x1x56x1_S16x128x56x128_0_1_2_3
          (broadcastInDim S16x1x56x1 ![0, 2] bcast_S16x56_S16x1x56x1_0_2 s)))
      shapeCasts_S16x128x56x128_S2048x7168)
    transposes_S2048x7168_S7168x2048_1_0) bitsLt_bf16_f32

/-- At (h, f) it holds the specification's entry (f, h): narrowing is the identity, the transpose swaps the
    coordinates, and the product is read factor by factor at the tile coordinates of (f, h). -/
theorem deqAT_at (q : FVec Ideal S7168x2048 .f32) (s : FVec Ideal S56x16 .f32)
    (h : Fin 2048) (f : Fin 7168) :
    (deqAT q s : S2048x7168.Idx → EReal) (ix2 h f) = Cert.Spec.wA q s f h := by
  unfold deqAT
  rw [truncf_apply, trA_at, mergeA_at, mulf_apply, splitA_at, scaleA_at]
  rfl

/-- At (f, h) it holds the specification's entry (h, f). -/
theorem deqBT_at (q : FVec Ideal S2048x7168 .f32) (s : FVec Ideal S16x56 .f32)
    (f : Fin 7168) (h : Fin 2048) :
    (deqBT q s : S7168x2048.Idx → EReal) (ix2 f h) = Cert.Spec.wB q s h f := by
  unfold deqBT
  rw [truncf_apply, trB_at, mergeB_at, mulf_apply, splitB_at, scaleB_at]
  rfl

/-! ## The four buffers the kernels read -/

/-- The narrowed input is the input, entry by entry. -/
theorem x_at (m : (ℓ : Loc nD τ sig) → Buf (Elt Ideal) ℓ) (c : Dev nD) (i : S4096x2048.Idx) :
    (W1 m c (Proc.devRef .tc main_v0) : S4096x2048.Idx → EReal) i
      = (m ((c : Thread nD τ).loc main_arg0) : S4096x2048.Idx → EReal) i := by
  have e : (W1 m c (Proc.devRef .tc main_v0) : S4096x2048.Idx → EReal)
      = truncf (F := Ideal) .bf16 (m ((c : Thread nD τ).loc main_arg0) : FVec Ideal S4096x2048 .f32) bitsLt_bf16_f32 := by
    show StableHlo.after hostOps0 (fun b => m (c, b)) (Proc.devRef .tc main_v0) = _
    after_results
  rw [e]
  rfl

/-- The first weight's array holds, at (h, f), the dequantized entry (f, h) of the first weight. -/
theorem w1t_at (m : (ℓ : Loc nD τ sig) → Buf (Elt Ideal) ℓ) (c : Dev nD) (h : Fin 2048) (f : Fin 7168) :
    (W1 m c (Proc.devRef .tc main_v7) : S2048x7168.Idx → EReal) (ValueIdx.ix2 h f)
      = Cert.Spec.wA (m ((c : Thread nD τ).loc main_arg1)) (m ((c : Thread nD τ).loc main_arg2)) f h := by
  have e : (W1 m c (Proc.devRef .tc main_v7) : S2048x7168.Idx → EReal)
      = deqAT (m ((c : Thread nD τ).loc main_arg1)) (m ((c : Thread nD τ).loc main_arg2)) := by
    show StableHlo.after hostOps0 (fun b => m (c, b)) (Proc.devRef .tc main_v7) = _
    after_results
    rfl
  rw [e]
  exact deqAT_at _ _ h f

/-- The third weight's array holds, at (h, f), the dequantized entry (f, h) of the third weight. -/
theorem w3t_at (m : (ℓ : Loc nD τ sig) → Buf (Elt Ideal) ℓ) (c : Dev nD) (h : Fin 2048) (f : Fin 7168) :
    (W1 m c (Proc.devRef .tc main_v14) : S2048x7168.Idx → EReal) (ValueIdx.ix2 h f)
      = Cert.Spec.wA (m ((c : Thread nD τ).loc main_arg3)) (m ((c : Thread nD τ).loc main_arg4)) f h := by
  have e : (W1 m c (Proc.devRef .tc main_v14) : S2048x7168.Idx → EReal)
      = deqAT (m ((c : Thread nD τ).loc main_arg3)) (m ((c : Thread nD τ).loc main_arg4)) := by
    show StableHlo.after hostOps0 (fun b => m (c, b)) (Proc.devRef .tc main_v14) = _
    after_results
    rfl
  rw [e]
  exact deqAT_at _ _ h f

/-- The second weight's array holds, at (f, h), the dequantized entry (h, f) of the second weight. -/
theorem w2t_at (m : (ℓ : Loc nD τ sig) → Buf (Elt Ideal) ℓ) (c : Dev nD) (f : Fin 7168) (h : Fin 2048) :
    (W1 m c (Proc.devRef .tc main_v21) : S7168x2048.Idx → EReal) (ValueIdx.ix2 f h)
      = Cert.Spec.wB (m ((c : Thread nD τ).loc main_arg5)) (m ((c : Thread nD τ).loc main_arg6)) h f := by
  have e : (W1 m c (Proc.devRef .tc main_v21) : S7168x2048.Idx → EReal)
      = deqBT (m ((c : Thread nD τ).loc main_arg5)) (m ((c : Thread nD τ).loc main_arg6)) := by
    show StableHlo.after hostOps0 (fun b => m (c, b)) (Proc.devRef .tc main_v21) = _
    after_results
    rfl
  rw [e]
  exact deqBT_at _ _ f h

end Cert.KernelIdeal.HostVal
end
-- ==== Proof.SpecT.lean ====
/-
  The two pallas_calls' results, each as one function of the arrays the call reads, index by index, on the
  extended reals.  The calls see the weights already rebuilt and transposed: `a1`, `a3` of shape [2048, 7168]
  (hidden coordinate first) and `b` of shape [7168, 2048] (inner coordinate first).

  `projT x a t f` is row `t` of `x` against column `f` of `a`, summed over the 2048 hidden coordinates;
  `actT` the gated activation `(g · σ(g)) · u` of the two projections; `outT y b t h` row `t` of `y` against column
  `h` of `b`, summed over the 7168 inner coordinates.
-/
import Idealize.ShloMosaic.PureOps.Ideal
import Idealize.ShloMosaic.Lib.ValueIdx

noncomputable section

open scoped BigOperators

namespace Cert.Spec

open Idealize.ShloMosaic Idealize.ShloMosaic.ValueIdx

/-- Row `t` of `x` against column `f` of `a`. -/
def projT (x : (⟨2, ![4096, 2048]⟩ : Shape).Idx → EReal) (a : (⟨2, ![2048, 7168]⟩ : Shape).Idx → EReal)
    (t : Fin 4096) (f : Fin 7168) : EReal :=
  ∑ h : Fin 2048, x (ix2 t h) * a (ix2 h f)

/-- The gated activation of the two projections at `(t, f)`. -/
def actT (x : (⟨2, ![4096, 2048]⟩ : Shape).Idx → EReal) (a1 a3 : (⟨2, ![2048, 7168]⟩ : Shape).Idx → EReal)
    (t : Fin 4096) (f : Fin 7168) : EReal :=
  (projT x a1 t f * Ideal.logistic (projT x a1 t f)) * projT x a3 t f

/-- Row `t` of `y` against column `h` of `b`. -/
def outT (y : (⟨2, ![4096, 7168]⟩ : Shape).Idx → EReal) (b : (⟨2, ![7168, 2048]⟩ : Shape).Idx → EReal)
    (t : Fin 4096) (h : Fin 2048) : EReal :=
  ∑ f : Fin 7168, y (ix2 t f) * b (ix2 f h)

end Cert.Spec

end
-- ==== Proof.Val0.lean ====
/-
  The first call's output array as ONE function of the arrays it reads, at the ideal values (a float an extended real,
  a change of format the identity).

  The grid is 8 × 7 × 2: position `t` has row block `i = t / 14`, column block `j = t / 2 % 7` and contracted block
  `k = t % 2`.  At `(i, j, k)` the body reads rows `512 i …` and hidden coordinates `1024 k …` of `x`, and hidden
  coordinates `1024 k …`, columns `1024 j …` of each weight.  Both accumulators are reset to zero at `k = 0` and take one
  block product per position, so after `k = 1` the accumulator for `g` holds at `(p, q)`

      (0 + Σ_{h < 1024} x[512 i + p, h] · a1[h, 1024 j + q]) + Σ_{h < 1024} x[512 i + p, 1024 + h] · a1[1024 + h, 1024 j + q],

  which is the sum over all 2048 hidden coordinates: `projT x a1 (512 i + p) (1024 j + q)` (only `0 + a = a` and the
  splitting of a finite sum into its two halves are used); the accumulator for `u` likewise with `a3`.  The block
  stored at `k = 1` is `(g · σ(g)) · u` of the two, that is `actT` at the array index the block coordinate sits at;
  the positions with `k = 1` write their blocks back, and those 8 × 7 blocks of 512 × 1024 tile the 4096 × 7168 array.
-/
import proofs.«156519_j90640989814791_1_alg».proof.Proof.Fr0
import proofs.«156519_j90640989814791_1_alg».proof.Proof.SpecT
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The four printed index maps over the grid 8 × 7 × 2: position `t` has row block `t / 14`, column block
    `t / 2 % 7` and contracted block `t % 2`. -/
theorem idx_facts : ∀ t : Fin cfg0.N,
    win0_0.index t (0 : Fin 2) = t.val / 14 ∧ win0_0.index t (1 : Fin 2) = t.val % 2
    ∧ win0_1.index t (0 : Fin 2) = t.val % 2 ∧ win0_1.index t (1 : Fin 2) = t.val / 2 % 7
    ∧ win0_2.index t (0 : Fin 2) = t.val % 2 ∧ win0_2.index t (1 : Fin 2) = t.val / 2 % 7
    ∧ win0_3.index t (0 : Fin 2) = t.val / 14 ∧ win0_3.index t (1 : Fin 2) = t.val / 2 % 7 :=
  (by decide +kernel : ∀ t : Fin grid0.N, _)

/-! ## Each input block read at an index -/

/-- The block of `x` at position `t`: rows `512 · (t / 14) …`, hidden coordinates `1024 · (t % 2) …`. -/
theorem xblk_apply (c : Dev nD) (t : Fin cfg0.N) (x : S512x1024.Idx) (k : S4096x2048.Idx)
    (hk0 : (k 0).val = 512 * (t.val / 14) + (x 0).val) (hk1 : (k 1).val = 1024 * (t.val % 2) + (x 1).val) :
    (iblk0 V c 0 t : Vec Ideal S512x1024 .bf16) x = (V c main_v0 : S4096x2048.Idx → EReal) k := by
  obtain ⟨e0, e1, -⟩ := idx_facts t
  unfold iblk0
  rw [View.read_apply]
  show V c main_v0 _ = V c main_v0 _
  congr 1
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The block of the first weight at position `t`: hidden coordinates `1024 · (t % 2) …`, columns `1024 · (t / 2 % 7) …`. -/
theorem w1blk_apply (c : Dev nD) (t : Fin cfg0.N) (x : S1024x1024.Idx) (k : S2048x7168.Idx)
    (hk0 : (k 0).val = 1024 * (t.val % 2) + (x 0).val) (hk1 : (k 1).val = 1024 * (t.val / 2 % 7) + (x 1).val) :
    (iblk0 V c 1 t : Vec Ideal S1024x1024 .bf16) x = (V c main_v7 : S2048x7168.Idx → EReal) k := by
  obtain ⟨-, -, e0, e1, -⟩ := idx_facts t
  unfold iblk0
  rw [View.read_apply]
  show V c main_v7 _ = V c main_v7 _
  congr 1
  funext a
  apply Fin.ext
  match a with
  | ⟨0, _⟩ => show win0_1.index t 0 * 1024 + 1 * (x 0).val = (k 0).val; rw [e0, hk0]; omega
  | ⟨1, _⟩ => show win0_1.index t 1 * 1024 + 1 * (x 1).val = (k 1).val; rw [e1, hk1]; omega

/-- The block of the second weight at position `t`, likewise. -/
theorem w3blk_apply (c : Dev nD) (t : Fin cfg0.N) (x : S1024x1024.Idx) (k : S2048x7168.Idx)
    (hk0 : (k 0).val = 1024 * (t.val % 2) + (x 0).val) (hk1 : (k 1).val = 1024 * (t.val / 2 % 7) + (x 1).val) :
    (iblk0 V c 2 t : Vec Ideal S1024x1024 .bf16) x = (V c main_v14 : S2048x7168.Idx → EReal) k := by
  obtain ⟨-, -, -, -, e0, e1, -⟩ := idx_facts t
  unfold iblk0
  rw [View.read_apply]
  show V c main_v14 _ = V c main_v14 _
  congr 1
  funext a
  apply Fin.ext
  match a with
  | ⟨0, _⟩ => show win0_2.index t 0 * 1024 + 1 * (x 0).val = (k 0).val; rw [e0, hk0]; omega
  | ⟨1, _⟩ => show win0_2.index t 1 * 1024 + 1 * (x 1).val = (k 1).val; rw [e1, hk1]; omega

/-! ## The payloads at the ideal values, read at an index -/

/-- The contraction of a 512 × 1024 block by a 1024 × 1024 block (one contracted axis of 1024 coordinates). -/
abbrev D := dot_S512x1024_S1024x1024_S512x1024_1_0_0_1_n_n

/-- Its contraction index is the one coordinate. -/
def contrE : D.contr.Idx ≃ Fin 1024 := contrEquiv1 D 1024 rfl rfl

theorem contrE_symm_val (h : Fin 1024) : ((contrE.symm h) ⟨0, by decide⟩ : ℕ) = h.val :=
  contrEquiv1_symm_val D 1024 rfl rfl h

/-- The left operand is read at (row of the result, contracted coordinate), -/
theorem lhsIdx_eq (p : Fin 512) (q : Fin 1024) (h : Fin 1024) :
    D.lhsIdx (ix2 p q) (contrE.symm h) = ix2 p h := by
  funext a
  apply Fin.ext
  match a with
  | ⟨0, _⟩ => simp [DotDims.lhsIdx, D, dot_S512x1024_S1024x1024_S512x1024_1_0_0_1_n_n]; rfl
  | ⟨1, _⟩ => simp [DotDims.lhsIdx, D, dot_S512x1024_S1024x1024_S512x1024_1_0_0_1_n_n]; exact contrE_symm_val h

/-- the right operand at (contracted coordinate, column of the result). -/
theorem rhsIdx_eq (p : Fin 512) (q : Fin 1024) (h : Fin 1024) :
    D.rhsIdx (ix2 p q) (contrE.symm h) = ix2 h q := by
  funext a
  apply Fin.ext
  match a with
  | ⟨0, _⟩ => simp [DotDims.rhsIdx, D, dot_S512x1024_S1024x1024_S512x1024_1_0_0_1_n_n]; exact contrE_symm_val h
  | ⟨1, _⟩ => simp [DotDims.rhsIdx, D, dot_S512x1024_S1024x1024_S512x1024_1_0_0_1_n_n]; rfl

/-- The zero splat both accumulators are reset to. -/
theorem pay1_apply (j : S512x1024.Idx) : (k0_pay1 (F := Ideal)) j = 0 := by
  unfold k0_pay1
  simp only [shapeCast_self]
  exact Ideal.ofBits_zero_f32

theorem pay2_apply (j : S512x1024.Idx) : (k0_pay2 (F := Ideal)) j = 0 := by
  unfold k0_pay2
  simp only [shapeCast_self]
  exact Ideal.ofBits_zero_f32

/-- One block product into an accumulator: the accumulator plus the sum over the block's 1024 contracted coordinates. -/
theorem blockProd_apply (x : FVec Ideal S512x1024 .bf16) (w : FVec Ideal S1024x1024 .bf16) (p : Fin 512) (q : Fin 1024) :
    FloatOps.matmul D none x w (constant S512x1024 .f32 0x00000000#32) (ix2 p q) = ∑ h : Fin 1024, x (ix2 p h) * w (ix2 h q) := by
  refine (Ideal.matmul_constant_zero_apply D none x w (ix2 p q)).trans ?_
  refine (Equiv.sum_comp contrE.symm _).symm.trans ?_
  exact Finset.sum_congr rfl fun h _ => by rw [lhsIdx_eq, rhsIdx_eq]

theorem pay3_apply (acc : Vec Ideal S512x1024 .f32) (x : Vec Ideal S512x1024 .bf16) (w : Vec Ideal S1024x1024 .bf16)
    (p : Fin 512) (q : Fin 1024) :
    k0_pay3 acc x w (ix2 p q) = acc (ix2 p q) + ∑ h : Fin 1024, x (ix2 p h) * w (ix2 h q) := by
  unfold k0_pay3
  simp only [shapeCast_self]
  exact congrArg (acc (ix2 p q) + ·) (blockProd_apply x w p q)

theorem pay4_apply (acc : Vec Ideal S512x1024 .f32) (x : Vec Ideal S512x1024 .bf16) (w : Vec Ideal S1024x1024 .bf16)
    (p : Fin 512) (q : Fin 1024) :
    k0_pay4 acc x w (ix2 p q) = acc (ix2 p q) + ∑ h : Fin 1024, x (ix2 p h) * w (ix2 h q) := by
  unfold k0_pay4
  simp only [shapeCast_self]
  exact congrArg (acc (ix2 p q) + ·) (blockProd_apply x w p q)

/-- The gated activation of the two accumulators (the change of format is the identity). -/
theorem pay5_apply (g u : Vec Ideal S512x1024 .f32) (j : S512x1024.Idx) :
    k0_pay5 g u j = (g j * Ideal.logistic (g j)) * u j := rfl

/-! ## The two accumulators after a last block -/

/-- A sum over the 2048 hidden coordinates is the sum over the first 1024 plus the sum over the last 1024. -/
theorem sum_two_blocks (f : Fin 2048 → EReal) :
    ∑ h : Fin 2048, f h
      = (∑ h : Fin 1024, f ⟨h.val, by have := h.isLt; omega⟩) + ∑ h : Fin 1024, f ⟨1024 + h.val, by have := h.isLt; omega⟩ := by
  refine (Fin.sum_univ_add (a := 1024) (b := 1024) f).trans ?_
  congr 1

/-- The two partial products of one operand pair, over the two blocks of the contracted axis, add up to the
    projection: row `512 · i + p` of `x` against column `1024 · j + q` of the weight. -/
theorem two_blocks_proj (X : S4096x2048.Idx → EReal) (A : S2048x7168.Idx → EReal)
    (x0 x1 : Vec Ideal S512x1024 .bf16) (w0 w1 : Vec Ideal S1024x1024 .bf16)
    (r : Fin 4096) (s : Fin 7168) (p : Fin 512) (q : Fin 1024)
    (hx0 : ∀ h : Fin 1024, x0 (ix2 p h) = X (ix2 r ⟨h.val, by have := h.isLt; omega⟩))
    (hx1 : ∀ h : Fin 1024, x1 (ix2 p h) = X (ix2 r ⟨1024 + h.val, by have := h.isLt; omega⟩))
    (hw0 : ∀ h : Fin 1024, w0 (ix2 h q) = A (ix2 ⟨h.val, by have := h.isLt; omega⟩ s))
    (hw1 : ∀ h : Fin 1024, w1 (ix2 h q) = A (ix2 ⟨1024 + h.val, by have := h.isLt; omega⟩ s)) :
    ((0 : EReal) + ∑ h : Fin 1024, x0 (ix2 p h) * w0 (ix2 h q)) + ∑ h : Fin 1024, x1 (ix2 p h) * w1 (ix2 h q)
      = Cert.Spec.projT X A r s := by
  unfold Cert.Spec.projT
  rw [zero_add, sum_two_blocks]
  congr 1
  · exact Finset.sum_congr rfl fun h _ => by rw [hx0 h, hw0 h]
  · exact Finset.sum_congr rfl fun h _ => by rw [hx1 h, hw1 h]

/-- The `g` accumulator after the two blocks of one run of the contracted axis, at `(p, q)`: the zero it was reset to,
    plus the first block's partial product, plus the second's — the whole projection. -/
theorem pay3_two (X : S4096x2048.Idx → EReal) (A : S2048x7168.Idx → EReal)
    (x0 x1 : Vec Ideal S512x1024 .bf16) (w0 w1 : Vec Ideal S1024x1024 .bf16)
    (r : Fin 4096) (s : Fin 7168) (p : Fin 512) (q : Fin 1024)
    (hx0 : ∀ h : Fin 1024, x0 (ix2 p h) = X (ix2 r ⟨h.val, by have := h.isLt; omega⟩))
    (hx1 : ∀ h : Fin 1024, x1 (ix2 p h) = X (ix2 r ⟨1024 + h.val, by have := h.isLt; omega⟩))
    (hw0 : ∀ h : Fin 1024, w0 (ix2 h q) = A (ix2 ⟨h.val, by have := h.isLt; omega⟩ s))
    (hw1 : ∀ h : Fin 1024, w1 (ix2 h q) = A (ix2 ⟨1024 + h.val, by have := h.isLt; omega⟩ s)) :
    k0_pay3 (k0_pay3 (k0_pay1 (F := Ideal)) x0 w0) x1 w1 (ix2 p q) = Cert.Spec.projT X A r s := by
  rw [pay3_apply, pay3_apply, pay1_apply]
  exact two_blocks_proj X A x0 x1 w0 w1 r s p q hx0 hx1 hw0 hw1

/-- The `u` accumulator likewise. -/
theorem pay4_two (X : S4096x2048.Idx → EReal) (A : S2048x7168.Idx → EReal)
    (x0 x1 : Vec Ideal S512x1024 .bf16) (w0 w1 : Vec Ideal S1024x1024 .bf16)
    (r : Fin 4096) (s : Fin 7168) (p : Fin 512) (q : Fin 1024)
    (hx0 : ∀ h : Fin 1024, x0 (ix2 p h) = X (ix2 r ⟨h.val, by have := h.isLt; omega⟩))
    (hx1 : ∀ h : Fin 1024, x1 (ix2 p h) = X (ix2 r ⟨1024 + h.val, by have := h.isLt; omega⟩))
    (hw0 : ∀ h : Fin 1024, w0 (ix2 h q) = A (ix2 ⟨h.val, by have := h.isLt; omega⟩ s))
    (hw1 : ∀ h : Fin 1024, w1 (ix2 h q) = A (ix2 ⟨1024 + h.val, by have := h.isLt; omega⟩ s)) :
    k0_pay4 (k0_pay4 (k0_pay2 (F := Ideal)) x0 w0) x1 w1 (ix2 p q) = Cert.Spec.projT X A r s := by
  rw [pay4_apply, pay4_apply, pay2_apply]
  exact two_blocks_proj X A x0 x1 w0 w1 r s p q hx0 hx1 hw0 hw1

/-- After a last block (an odd position `t`) the two accumulators hold, at `(p, q)`, the two projections at row
    `512 · (t / 14) + p` and column `1024 · (t / 2 % 7) + q`: the position before is the first block of the same
    run, with the same row and column blocks. -/
theorem gu_last (c : Dev nD) (t : Fin cfg0.N) (ht : t.val % 2 = 1) (p : Fin 512) (q : Fin 1024)
    (r : Fin 4096) (s : Fin 7168) (hr : r.val = 512 * (t.val / 14) + p.val) (hs : s.val = 1024 * (t.val / 2 % 7) + q.val) :
    (gu0 V c t.val t.isLt).1 (ix2 p q) = Cert.Spec.projT (V c main_v0) (V c main_v7) r s
      ∧ (gu0 V c t.val t.isLt).2 (ix2 p q) = Cert.Spec.projT (V c main_v0) (V c main_v14) r s := by
  have hne : ¬t.val % 2 = 0 := by omega
  have hlt : t.val - 1 < cfg0.N := Nat.lt_of_le_of_lt (Nat.sub_le _ _) t.isLt
  have h0 : (⟨t.val - 1, hlt⟩ : Fin cfg0.N).val % 2 = 0 := by show (t.val - 1) % 2 = 0; omega
  have e : gu0 V c (t.val - 1) hlt = _ := gu0_first V c ⟨t.val - 1, hlt⟩ h0
  rw [gu0_step V c t hne, e]
  dsimp only
  have hx0 : ∀ h : Fin 1024, (iblk0 V c 0 ⟨t.val - 1, hlt⟩ : Vec Ideal S512x1024 .bf16) (ix2 p h)
      = (V c main_v0 : S4096x2048.Idx → EReal) (ix2 r ⟨h.val, by have := h.isLt; omega⟩) := fun h =>
    xblk_apply V c ⟨t.val - 1, hlt⟩ (ix2 p h) (ix2 r ⟨h.val, by have := h.isLt; omega⟩)
      (by show r.val = 512 * ((t.val - 1) / 14) + p.val; omega) (by show h.val = 1024 * ((t.val - 1) % 2) + h.val; omega)
  have hx1 : ∀ h : Fin 1024, (iblk0 V c 0 t : Vec Ideal S512x1024 .bf16) (ix2 p h)
      = (V c main_v0 : S4096x2048.Idx → EReal) (ix2 r ⟨1024 + h.val, by have := h.isLt; omega⟩) := fun h =>
    xblk_apply V c t (ix2 p h) (ix2 r ⟨1024 + h.val, by have := h.isLt; omega⟩)
      (by show r.val = 512 * (t.val / 14) + p.val; omega) (by show 1024 + h.val = 1024 * (t.val % 2) + h.val; omega)
  have ha0 : ∀ h : Fin 1024, (iblk0 V c 1 ⟨t.val - 1, hlt⟩ : Vec Ideal S1024x1024 .bf16) (ix2 h q)
      = (V c main_v7 : S2048x7168.Idx → EReal) (ix2 ⟨h.val, by have := h.isLt; omega⟩ s) := fun h =>
    w1blk_apply V c ⟨t.val - 1, hlt⟩ (ix2 h q) (ix2 ⟨h.val, by have := h.isLt; omega⟩ s)
      (by show h.val = 1024 * ((t.val - 1) % 2) + h.val; omega) (by show s.val = 1024 * ((t.val - 1) / 2 % 7) + q.val; omega)
  have ha1 : ∀ h : Fin 1024, (iblk0 V c 1 t : Vec Ideal S1024x1024 .bf16) (ix2 h q)
      = (V c main_v7 : S2048x7168.Idx → EReal) (ix2 ⟨1024 + h.val, by have := h.isLt; omega⟩ s) := fun h =>
    w1blk_apply V c t (ix2 h q) (ix2 ⟨1024 + h.val, by have := h.isLt; omega⟩ s)
      (by show 1024 + h.val = 1024 * (t.val % 2) + h.val; omega) (by show s.val = 1024 * (t.val / 2 % 7) + q.val; omega)
  have hb0 : ∀ h : Fin 1024, (iblk0 V c 2 ⟨t.val - 1, hlt⟩ : Vec Ideal S1024x1024 .bf16) (ix2 h q)
      = (V c main_v14 : S2048x7168.Idx → EReal) (ix2 ⟨h.val, by have := h.isLt; omega⟩ s) := fun h =>
    w3blk_apply V c ⟨t.val - 1, hlt⟩ (ix2 h q) (ix2 ⟨h.val, by have := h.isLt; omega⟩ s)
      (by show h.val = 1024 * ((t.val - 1) % 2) + h.val; omega) (by show s.val = 1024 * ((t.val - 1) / 2 % 7) + q.val; omega)
  have hb1 : ∀ h : Fin 1024, (iblk0 V c 2 t : Vec Ideal S1024x1024 .bf16) (ix2 h q)
      = (V c main_v14 : S2048x7168.Idx → EReal) (ix2 ⟨1024 + h.val, by have := h.isLt; omega⟩ s) := fun h =>
    w3blk_apply V c t (ix2 h q) (ix2 ⟨1024 + h.val, by have := h.isLt; omega⟩ s)
      (by show 1024 + h.val = 1024 * (t.val % 2) + h.val; omega) (by show s.val = 1024 * (t.val / 2 % 7) + q.val; omega)
  exact ⟨pay3_two (V c main_v0) (V c main_v7) (iblk0 V c 0 ⟨t.val - 1, hlt⟩) (iblk0 V c 0 t) (iblk0 V c 1 ⟨t.val - 1, hlt⟩) (iblk0 V c 1 t)
      r s p q hx0 hx1 ha0 ha1,
    pay4_two (V c main_v0) (V c main_v14) (iblk0 V c 0 ⟨t.val - 1, hlt⟩) (iblk0 V c 0 t) (iblk0 V c 2 ⟨t.val - 1, hlt⟩) (iblk0 V c 2 t)
      r s p q hx0 hx1 hb0 hb1⟩

/-! ## From the blocks to the array -/

/-- The output block's buffer after a last block, at the block coordinate `x`, is the gated activation of the two
    projections at the array index `i` that `x` sits at. -/
theorem act_apply (c : Dev nD) (t : Fin cfg0.N) (ht : t.val % 2 = 1) (x : S512x1024.Idx) (i : S4096x7168.Idx)
    (h0 : (i 0).val = 512 * (t.val / 14) + (x 0).val) (h1 : (i 1).val = 1024 * (t.val / 2 % 7) + (x 1).val) :
    (o0 V c t.val t.isLt : Vec Ideal S512x1024 .bf16) x
      = Cert.Spec.actT (V c main_v0) (V c main_v7) (V c main_v14) (i 0) (i 1) := by
  obtain ⟨p, q, rfl⟩ : ∃ (p : Fin 512) (q : Fin 1024), x = ix2 p q := ⟨x 0, x 1, eq_ix2 x⟩
  obtain ⟨hg, hu⟩ := gu_last V c t ht p q (i 0) (i 1) h0 h1
  show ((gu0 V c t.val t.isLt).1 (ix2 p q) * Ideal.logistic ((gu0 V c t.val t.isLt).1 (ix2 p q))) * (gu0 V c t.val t.isLt).2 (ix2 p q) = _
  rw [hg, hu]
  rfl

/-- The whole output array: the gated activation of the two projections, index by index. -/
abbrev G (c : Dev nD) : S4096x7168.Idx → EReal :=
  fun i => Cert.Spec.actT (V c main_v0) (V c main_v7) (V c main_v14) (i 0) (i 1)

/-- What a last block writes back is its block of `G`. -/
theorem flushed_eq (c : Dev nD) (t : Fin cfg0.N) (hf : (cfg0.win 3).flush t = true) :
    (dat0 V c).flushed 3 t = ((cfg0.win 3).blk t).view.read (Elt Ideal) (G V c) := by
  have ht : t.val % 2 = 1 := (flush0_3 t).mp hf
  obtain ⟨-, -, -, -, -, -, e0, e1⟩ := idx_facts t
  show (cfg0.win 3).cut (grid0.coords t) ((dat0 V c).after 3 t) = _
  rw [after0_3]
  funext y
  rw [View.read_apply]
  refine act_apply V c t ht ((cfg0.win 3).xinj (grid0.coords t) y) (((cfg0.win 3).blk t).view.emb y) ?_ ?_
  · show win0_3.index t 0 * 512 + 1 * (y 0).val = 512 * (t.val / 14) + (y 0).val
    rw [e0]; omega
  · show win0_3.index t 1 * 1024 + 1 * (y 1).val = 1024 * (t.val / 2 % 7) + (y 1).val
    rw [e1]; omega

/-- Every index of the output array lies in the block of a last-block position: row `r`, column `s` in that of
    position `14 · (r / 512) + 2 · (s / 1024) + 1`. -/
theorem cover (i : S4096x7168.Idx) :
    ∃ t : Fin cfg0.N, (cfg0.win 3).flush t = true ∧ i ∈ ((cfg0.win 3).blk t).view.set := by
  have h0 : (i 0).val < 4096 := idx2_lt0 i
  have h1 : (i 1).val < 7168 := idx2_lt1 i
  have hN : cfg0.N = 112 := N_0
  obtain ⟨n, hn⟩ : ∃ n : ℕ, n = 14 * ((i 0).val / 512) + 2 * ((i 1).val / 1024) + 1 := ⟨_, rfl⟩
  have hlt : n < cfg0.N := by rw [hN]; omega
  refine ⟨⟨n, hlt⟩, (flush0_3 ⟨n, hlt⟩).mpr (by show n % 2 = 1; omega), ?_⟩
  obtain ⟨-, -, -, -, -, -, e0, e1⟩ := idx_facts ⟨n, hlt⟩
  show i ∈ ((View.whole main_v22).slice (win0_3.rect ⟨n, hlt⟩)).set
  rw [View.set_slice_whole, Rect.mem_set_unit]
  intro a
  match a with
  | ⟨0, _⟩ =>
    show win0_3.index ⟨n, hlt⟩ 0 * 512 ≤ (i 0).val ∧ (i 0).val < win0_3.index ⟨n, hlt⟩ 0 * 512 + 512
    rw [e0]; show n / 14 * 512 ≤ (i 0).val ∧ (i 0).val < n / 14 * 512 + 512; omega
  | ⟨1, _⟩ =>
    show win0_3.index ⟨n, hlt⟩ 1 * 1024 ≤ (i 1).val ∧ (i 1).val < win0_3.index ⟨n, hlt⟩ 1 * 1024 + 1024
    rw [e1]; show n / 2 % 7 * 1024 ≤ (i 1).val ∧ (i 1).val < n / 2 % 7 * 1024 + 1024; omega

/-- The call's output array after the call: `G`. -/
theorem arr0_eq (c : Dev nD) :
    ((dat0 (F := Ideal) V c).arrAt 3 cfg0.N : S4096x7168.Idx → EReal)
      = fun i => Cert.Spec.actT (V c main_v0) (V c main_v7) (V c main_v14) (i 0) (i 1) :=
  (dat0 V c).arrAt_eq_of_cover 3 (G V c) (flushed_eq V c) cover

end Cert.KernelIdeal.Val
end
-- ==== Proof.Val1.lean ====
/-
  The second call's result array, on the extended reals, is one function of the two arrays the call reads:
  at (r, s) the sum over the 7168 inner coordinates f of y(r, f) · b(f, s).

  The grid is 8 × 2 × 7 and position n has coordinates (n / 14, n / 7 mod 2, n mod 7): a block of 512 rows, a block
  of 1024 columns, and a block of 1024 inner coordinates.  At position n the body reads rows
  [512 (n / 14), +512) × inner [1024 (n mod 7), +1024) of y and inner [1024 (n mod 7), +1024) × columns
  [1024 (n / 7 mod 2), +1024) of b, and adds their product to the accumulator (to zero where n mod 7 = 0).  The product
  of the two blocks at (p, q) is the sum over the block's 1024 inner coordinates, so by induction along a run of
  seven positions the accumulator after position n holds, at (p, q), the sum over the first (n mod 7) + 1 blocks of
  inner coordinates of y(row, f) · b(f, column), with row = 512 (n / 14) + p and column = 1024 (n / 7 mod 2) + q, which do
  not change along the run.  Only that addition is associative is used: each new block is added on the right of the sum so far.
  After the seventh block the sum runs over all 7 · 1024 = 7168 inner coordinates, and that is when the accumulator is written
  to the result's block (n / 14, n / 7 mod 2).  Those sixteen blocks tile the [4096, 2048] result, so the array ends holding the
  whole-array function everywhere.
-/
import proofs.«156519_j90640989814791_1_alg».proof.Proof.Fr1
import proofs.«156519_j90640989814791_1_alg».proof.Proof.SpecT
import Idealize.ShloMosaic.Lib.Pipeline.Value
import Idealize.ShloMosaic.Lib.ValueIdx
import Idealize.ShloMosaic.PureOps.Ideal.Laws

noncomputable section

open scoped BigOperators

namespace Cert.KernelIdeal.Val1

open Cert.KernelIdeal Cert.KernelIdeal.Gen Cert.KernelIdeal.Fr
open Idealize.ShloMosaic Idealize.ShloMosaic.TcCoe Idealize.ShloMosaic.ValueIdx
open Idealize.SL Idealize.SL.Sem

/-- The contraction of a [512, 1024] block against a [1024, 1024] block. -/
abbrev D := dot_S512x1024_S1024x1024_S512x1024_1_0_0_1_n_n

/-! ## One block product at an index

  The contraction's operand indices at output index (p, q) and contraction coordinate k are (p, k) and (k, q). -/

/-- The left operand's row is the output's row. -/
theorem lhs_0 (j : S512x1024.Idx) (q : D.contr.Idx) : (D.lhsIdx j q 0).val = (j 0).val := by
  unfold DotDims.lhsIdx
  rw [dif_neg (show ¬(0 : Fin S512x1024.rank) ∈ D.lhsBatch by decide), dif_pos (show (0 : Fin S512x1024.rank) ∈ D.lhsNonContracting by decide)]
  rfl
/-- The left operand's column is the contracted coordinate. -/
theorem lhs_1 (j : S512x1024.Idx) (q : D.contr.Idx) : (D.lhsIdx j q 1).val = (q ⟨0, by decide⟩).val :=
  D.lhsIdx_val_of_single rfl j q
/-- The right operand's row is the contracted coordinate. -/
theorem rhs_0 (j : S512x1024.Idx) (q : D.contr.Idx) : (D.rhsIdx j q 0).val = (q ⟨0, by decide⟩).val :=
  D.rhsIdx_val_of_single rfl j q
/-- The right operand's column is the output's column. -/
theorem rhs_1 (j : S512x1024.Idx) (q : D.contr.Idx) : (D.rhsIdx j q 1).val = (j 1).val := by
  unfold DotDims.rhsIdx
  rw [dif_neg (show ¬(1 : Fin S1024x1024.rank) ∈ D.rhsBatch by decide), dif_pos (show (1 : Fin S1024x1024.rank) ∈ D.rhsNonContracting by decide)]
  rfl

/-- The value the accumulator is reset to is zero everywhere. -/
theorem pay1_at (p : Fin 512) (q : Fin 1024) : k1_pay1 (F := Ideal) (ix2 p q) = 0 := by
  unfold k1_pay1
  rw [shapeCast_self]
  exact Ideal.ofBits_zero_f32

/-- One step of the body at (p, q): the accumulator there plus the sum, over the block's 1024 inner coordinates k, of
    x(p, k) · w(k, q).  Reshaping to the same shape changes nothing, and the product into a zero accumulator is the
    plain sum, re-indexed from the contraction's one-axis index set to the numbers below 1024. -/
theorem pay2_at (a : FVec Ideal S512x1024 .f32) (x : FVec Ideal S512x1024 .bf16) (w : FVec Ideal S1024x1024 .bf16)
    (p : Fin 512) (q : Fin 1024) :
    k1_pay2 (F := Ideal) a x w (ix2 p q) = a (ix2 p q) + ∑ k : Fin 1024, x (ix2 p k) * w (ix2 k q) := by
  unfold k1_pay2
  rw [shapeCast_self, shapeCast_self, shapeCast_self]
  refine (addf_apply a _ (ix2 p q)).trans (congrArg (a (ix2 p q) + ·) ?_)
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 1024 rfl rfl).symm k) = ix2 k q := funext fun a => Fin.ext (by
    match a with
    | ⟨0, _⟩ => exact (rhs_0 _ _).trans hk
    | ⟨1, _⟩ => exact rhs_1 _ _)
  rw [el, er]

section Arrays
variable (V : (c : Dev nD) → (b : Ref sig .tc) → Buf (Elt Ideal) ((c : Thread nD τ).loc b))

/-- The activation array the call reads, [4096, 7168]. -/
abbrev yarr (c : Dev nD) : FVec Ideal S4096x7168 .bf16 := V c main_v22
/-- The weight array the call reads, [7168, 2048]. -/
abbrev warr (c : Dev nD) : FVec Ideal S7168x2048 .bf16 := V c main_v21
/-- The activation block at a position, [512, 1024]. -/
abbrev yblk (c : Dev nD) (t : Fin cfg1.N) : FVec Ideal S512x1024 .bf16 := iblk1 (F := Ideal) V c 0 t
/-- The weight block at a position, [1024, 1024]. -/
abbrev wblk (c : Dev nD) (t : Fin cfg1.N) : FVec Ideal S1024x1024 .bf16 := iblk1 (F := Ideal) V c 1 t

/-- The array row that row `p` of position `n`'s blocks is: 512 (n / 14) + p. -/
abbrev rowOf (n : ℕ) (p : Fin 512) : Fin 4096 := ⟨n / 14 % 8 * 512 + p.val, by omega⟩
/-- The array column that column `q` of position `n`'s blocks is: 1024 (n / 7 mod 2) + q. -/
abbrev colOf (n : ℕ) (q : Fin 1024) : Fin 2048 := ⟨n / 7 % 2 * 1024 + q.val, by omega⟩
/-- The inner coordinate that coordinate `k` of the `b`-th inner block is: 1024 (b mod 7) + k. -/
abbrev innerOf (b : ℕ) (k : Fin 1024) : Fin 7168 := ⟨b % 7 * 1024 + k.val, by omega⟩

/-- The three index maps at position n, decided over the 112 positions: the activation's block is (n / 14, n mod 7),
    the weight's (n mod 7, n / 7 mod 2), the result's (n / 14, n / 7 mod 2). -/
theorem idx_facts : ∀ t : Fin cfg1.N,
    win1_0.index t (0 : Fin 2) = t.val / 14 % 8 ∧ win1_0.index t (1 : Fin 2) = t.val % 7
    ∧ win1_1.index t (0 : Fin 2) = t.val % 7 ∧ win1_1.index t (1 : Fin 2) = t.val / 7 % 2
    ∧ win1_2.index t (0 : Fin 2) = t.val / 14 % 8 ∧ win1_2.index t (1 : Fin 2) = t.val / 7 % 2 :=
  (by decide +kernel : ∀ t : Fin grid1.N, _)

/-- The activation block at (p, k) is the array at (row of p, inner coordinate of k): a block's coordinate is the block
    index times the block's extent plus the coordinate inside the block. -/
theorem yblk_at (c : Dev nD) (t : Fin cfg1.N) (p : Fin 512) (k : Fin 1024) :
    yblk V c t (ix2 p k) = yarr V c (ix2 (rowOf t.val p) (innerOf t.val k)) := by
  obtain ⟨e0, e1, -, -, -, -⟩ := idx_facts t
  show V c main_v22 (((cfg1.win 0).blk t).view.emb (ix2 p k)) = V c main_v22 (ix2 (rowOf t.val p) (innerOf t.val k))
  refine congrArg (V c main_v22) (funext fun a => Fin.ext ?_)
  match a with
  | ⟨0, _⟩ => show win1_0.index t (0 : Fin 2) * 512 + 1 * p.val = t.val / 14 % 8 * 512 + p.val; omega
  | ⟨1, _⟩ => show win1_0.index t (1 : Fin 2) * 1024 + 1 * k.val = t.val % 7 * 1024 + k.val; omega

/-- The weight block at (k, q) is the array at (inner coordinate of k, column of q). -/
theorem wblk_at (c : Dev nD) (t : Fin cfg1.N) (k : Fin 1024) (q : Fin 1024) :
    wblk V c t (ix2 k q) = warr V c (ix2 (innerOf t.val k) (colOf t.val q)) := by
  obtain ⟨-, -, e0, e1, -, -⟩ := idx_facts t
  show V c main_v21 (((cfg1.win 1).blk t).view.emb (ix2 k q)) = V c main_v21 (ix2 (innerOf t.val k) (colOf t.val q))
  refine congrArg (V c main_v21) (funext fun a => Fin.ext ?_)
  match a with
  | ⟨0, _⟩ => show win1_1.index t (0 : Fin 2) * 1024 + 1 * k.val = t.val % 7 * 1024 + k.val; omega
  | ⟨1, _⟩ => show win1_1.index t (1 : Fin 2) * 1024 + 1 * q.val = t.val / 7 % 2 * 1024 + q.val; omega

/-- The partial product over the `b`-th block of 1024 inner coordinates. -/
def bt (y : S4096x7168.Idx → EReal) (w : S7168x2048.Idx → EReal) (r : Fin 4096) (s : Fin 2048) (b : ℕ) : EReal :=
  ∑ k : Fin 1024, y (ix2 r (innerOf b k)) * w (ix2 (innerOf b k) s)

/-- One step of the body at position `t`, over any accumulator: the accumulator plus the partial product over the
    position's inner block, read off the two arrays. -/
theorem step_at (c : Dev nD) (t : Fin cfg1.N) (a : FVec Ideal S512x1024 .f32) (p : Fin 512) (q : Fin 1024) :
    k1_pay2 (F := Ideal) a (yblk V c t) (wblk V c t) (ix2 p q)
      = a (ix2 p q) + bt (yarr V c) (warr V c) (rowOf t.val p) (colOf t.val q) t.val := by
  refine (pay2_at a (yblk V c t) (wblk V c t) p q).trans (congrArg (a (ix2 p q) + ·) ?_)
  unfold bt
  refine Finset.sum_congr rfl fun k _ => ?_
  rw [yblk_at V c t p k, wblk_at V c t k q]

/-- Away from a first block the accumulator is one step over what the position before left. -/
theorem acc_succ (c : Dev nD) (n : ℕ) (hn : n + 1 < cfg1.N) (h : ¬(n + 1) % 7 = 0) :
    acc1 (F := Ideal) V c (n + 1) hn
      = k1_pay2 (F := Ideal) (acc1 (F := Ideal) V c n (Nat.lt_of_succ_lt hn)) (yblk V c ⟨n + 1, hn⟩) (wblk V c ⟨n + 1, hn⟩) :=
  (if_neg h).trans rfl

/-- At a first block it is one step over the reset value. -/
theorem acc_first (c : Dev nD) (n : ℕ) (hn : n < cfg1.N) (h : n % 7 = 0) :
    acc1 (F := Ideal) V c n hn = k1_pay2 (F := Ideal) (k1_pay1 (F := Ideal)) (yblk V c ⟨n, hn⟩) (wblk V c ⟨n, hn⟩) :=
  acc1_first V c ⟨n, hn⟩ h

/-- THE INVARIANT: after position `n` the accumulator at (p, q) is the sum of the partial products over the inner blocks
    0, …, n mod 7, at the row and column of the run.  At a first block the sum is the one term over zero; at a later block
    the row and the column are those of the position before, the block number is one more, and the new term is added on
    the right. -/
theorem acc_inv (c : Dev nD) : ∀ (n : ℕ) (hn : n < cfg1.N) (p : Fin 512) (q : Fin 1024),
    (acc1 (F := Ideal) V c n hn : FVec Ideal S512x1024 .f32) (ix2 p q)
      = ∑ b ∈ Finset.range (n % 7 + 1), bt (yarr V c) (warr V c) (rowOf n p) (colOf n q) b := by
  intro n
  induction n with
  | zero =>
    intro hn p q
    rw [acc_first V c 0 hn rfl]
    refine (step_at V c ⟨0, hn⟩ (k1_pay1 (F := Ideal)) p q).trans ?_
    rw [pay1_at, zero_add]
    exact (Finset.sum_range_one _).symm
  | succ n ih =>
    intro hn p q
    by_cases h : (n + 1) % 7 = 0
    · rw [acc_first V c (n + 1) hn h]
      refine (step_at V c ⟨n + 1, hn⟩ (k1_pay1 (F := Ideal)) p q).trans ?_
      rw [pay1_at, zero_add, h]
      show bt (yarr V c) (warr V c) (rowOf (n + 1) p) (colOf (n + 1) q) (n + 1) = _
      rw [Finset.sum_range_one]
      unfold bt
      refine Finset.sum_congr rfl fun k _ => ?_
      have e : innerOf (n + 1) k = innerOf 0 k := Fin.ext (by show (n + 1) % 7 * 1024 + k.val = 0 % 7 * 1024 + k.val; omega)
      rw [e]
    · rw [acc_succ V c n hn h]
      refine (step_at V c ⟨n + 1, hn⟩ (acc1 (F := Ideal) V c n (Nat.lt_of_succ_lt hn)) p q).trans ?_
      rw [ih (Nat.lt_of_succ_lt hn) p q]
      have hr : rowOf (n + 1) p = rowOf n p := Fin.ext (by show (n + 1) / 14 % 8 * 512 + p.val = n / 14 % 8 * 512 + p.val; omega)
      have hc : colOf (n + 1) q = colOf n q := Fin.ext (by show (n + 1) / 7 % 2 * 1024 + q.val = n / 7 % 2 * 1024 + q.val; omega)
      have hm : (n + 1) % 7 + 1 = (n % 7 + 1) + 1 := by omega
      show _ + bt (yarr V c) (warr V c) (rowOf (n + 1) p) (colOf (n + 1) q) (n + 1) = _
      rw [hr, hc, hm, Finset.sum_range_succ _ (n % 7 + 1)]
      refine congrArg ((∑ b ∈ Finset.range (n % 7 + 1), bt (yarr V c) (warr V c) (rowOf n p) (colOf n q) b) + ·) ?_
      unfold bt
      refine Finset.sum_congr rfl fun k _ => ?_
      have e : innerOf (n + 1) k = innerOf (n % 7 + 1) k := Fin.ext (by show (n + 1) % 7 * 1024 + k.val = (n % 7 + 1) % 7 * 1024 + k.val; omega)
      rw [e]

/-- Seven blocks of 1024 make the whole sum over the 7168 inner coordinates. -/
theorem blocks_sum (y : S4096x7168.Idx → EReal) (w : S7168x2048.Idx → EReal) (r : Fin 4096) (s : Fin 2048) :
    ∑ b ∈ Finset.range 7, bt y w r s b = ∑ f : Fin 7168, y (ix2 r f) * w (ix2 f s) := by
  rw [Finset.sum_range]
  unfold bt
  rw [← Fintype.sum_prod_type' (f := fun (b : Fin 7) (k : Fin 1024) => y (ix2 r (innerOf b.val k)) * w (ix2 (innerOf b.val k) s))]
  refine (Finset.sum_congr rfl fun x _ => ?_).trans
    (Equiv.sum_comp (finProdFinEquiv : Fin 7 × Fin 1024 ≃ Fin (7 * 1024)) (fun f : Fin 7168 => y (ix2 r f) * w (ix2 f s)))
  have e : innerOf x.1.val x.2 = finProdFinEquiv (x.1, x.2) := Fin.ext (by
    show x.1.val % 7 * 1024 + x.2.val = x.2.val + 1024 * x.1.val
    omega)
  rw [e]

/-- The call's result as one function of the two arrays it reads. -/
abbrev G (c : Dev nD) : S4096x2048.Idx → EReal :=
  fun i => Cert.Spec.outT (yarr V c) (warr V c) (i 0) (i 1)

/-- At a last block the accumulator at `j` is the whole-array function at the index `j` stands for in the result. -/
theorem flushed_at (c : Dev nD) (t : Fin cfg1.N) (h6 : t.val % 7 = 6) (j : S512x1024.Idx) :
    (acc1 (F := Ideal) V c t.val t.isLt : FVec Ideal S512x1024 .f32) j = G V c (((cfg1.win 2).blk t).view.emb j) := by
  obtain ⟨p, q, rfl⟩ : ∃ (p : Fin 512) (q : Fin 1024), j = ix2 p q := ⟨j 0, j 1, eq_ix2 j⟩
  obtain ⟨-, -, -, -, e0, e1⟩ := idx_facts t
  rw [acc_inv V c t.val t.isLt p q, h6]
  refine (blocks_sum (yarr V c) (warr V c) (rowOf t.val p) (colOf t.val q)).trans ?_
  have hr : (((cfg1.win 2).blk t).view.emb (ix2 p q)) 0 = rowOf t.val p := Fin.ext (by
    show win1_2.index t (0 : Fin 2) * 512 + 1 * p.val = t.val / 14 % 8 * 512 + p.val; omega)
  have hc : (((cfg1.win 2).blk t).view.emb (ix2 p q)) 1 = colOf t.val q := Fin.ext (by
    show win1_2.index t (1 : Fin 2) * 1024 + 1 * q.val = t.val / 7 % 2 * 1024 + q.val; omega)
  show Cert.Spec.outT (yarr V c) (warr V c) (rowOf t.val p) (colOf t.val q)
    = Cert.Spec.outT (yarr V c) (warr V c) ((((cfg1.win 2).blk t).view.emb (ix2 p q)) 0) ((((cfg1.win 2).blk t).view.emb (ix2 p q)) 1)
  rw [hr, hc]

/-- What a writing position writes back is its block of the whole-array function. -/
theorem flushed_eq (c : Dev nD) (t : Fin cfg1.N) (hf : (cfg1.win 2).flush t = true) :
    (dat1 (F := Ideal) V c).flushed 2 t = ((cfg1.win 2).blk t).view.read (Elt Ideal) (G V c) := by
  have h6 : t.val % 7 = 6 := (flush1_2 t).mp hf
  show (cfg1.win 2).cut (grid1.coords t) ((dat1 (F := Ideal) V c).after 2 t) = _
  rw [after1_2]
  funext j
  exact flushed_at V c t h6 j

end Arrays

/-- An index of the result lies in position `t`'s block iff each coordinate lies in the block's range on its axis. -/
theorem mem_blk (t : Fin cfg1.N) (i : S4096x2048.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v23).slice (win1_2.rect t)).set ↔ _
  rw [View.set_slice_whole, Rect.mem_set_unit]
  exact Iff.rfl

/-- Every index (r, s) of the result lies in the block of a writing position: the last position of the run with row
    block r / 512 and column block s / 1024, which is 14 (r / 512) + 7 (s / 1024) + 6. -/
theorem cover (i : S4096x2048.Idx) :
    ∃ t : Fin cfg1.N, (cfg1.win 2).flush t = true ∧ i ∈ ((cfg1.win 2).blk t).view.set := by
  have h0 : (i 0).val < 4096 := (i 0).isLt
  have h1 : (i 1).val < 2048 := (i 1).isLt
  have hN : cfg1.N = 112 := N_1
  obtain ⟨t, ht⟩ : ∃ t : Fin cfg1.N, t.val = (i 0).val / 512 * 14 + (i 1).val / 1024 * 7 + 6 :=
    ⟨⟨(i 0).val / 512 * 14 + (i 1).val / 1024 * 7 + 6, by rw [hN]; omega⟩, rfl⟩
  obtain ⟨-, -, -, -, e0, e1⟩ := idx_facts t
  refine ⟨t, (flush1_2 t).mpr (by omega), ?_⟩
  rw [mem_blk]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 1024 ≤ (i 1).val ∧ (i 1).val < win1_2.index t (1 : Fin 2) * 1024 + 1024
    omega

/-- The result array after the call. -/
theorem arr1_eq (V : (c : Dev nD) → (b : Ref sig .tc) → Buf (Elt Ideal) ((c : Thread nD τ).loc b)) (c : Dev nD) :
    ((dat1 (F := Ideal) V c).arrAt 2 cfg1.N : S4096x2048.Idx → EReal)
      = fun i => Cert.Spec.outT (V c main_v22) (V c main_v21) (i 0) (i 1) :=
  (dat1 (F := Ideal) V c).arrAt_eq_of_cover 2 (G V c) (fun t hf => flushed_eq V c t hf) cover

end Cert.KernelIdeal.Val1
end
-- ==== Proof.Bridge.lean ====
/-
  The kernel program's result is the specification.  The second call's output array is, index by index, the
  row-against-column sums of the array the first call wrote and the rebuilt second weight; the first call's output
  array is the gated activation of the two projections of the cast activations against the rebuilt first and third
  weights; and the host operations rebuild each weight entry as the quantized value times the scale of its
  128 × 128 tile, the casts being the identity on the extended reals.  Substituting one into the other gives the
  specification's `G` of the seven argument arrays; no algebraic law is used beyond congruence of sums and products.
-/
import proofs.«156519_j90640989814791_1_alg».proof.Proof.Run
import proofs.«156519_j90640989814791_1_alg».proof.Proof.HostVal
import proofs.«156519_j90640989814791_1_alg».proof.Proof.Spec
import proofs.«156519_j90640989814791_1_alg».proof.Proof.SpecT
import proofs.«156519_j90640989814791_1_alg».proof.Proof.Val0
import proofs.«156519_j90640989814791_1_alg».proof.Proof.Val1
import Idealize.ShloMosaic.Lib.ValueIdx

noncomputable section

namespace Cert.KernelIdeal.Bridge

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-- The first projection as the first call sees it — the cast activations against the rebuilt, transposed first
    weight — is the specification's: the cast is the identity on the extended reals, and the rebuilt weight's entry
    is the quantized value times its tile's scale. -/
theorem proj1_eq (c : Dev nD) (t : Fin 4096) (f : Fin 7168) :
    Cert.Spec.projT (Fr.V1 m c main_v0) (Fr.V1 m c main_v7) t f
      = Cert.Spec.proj (m ((c : Thread nD τ).loc main_arg0)) (m ((c : Thread nD τ).loc main_arg1)) (m ((c : Thread nD τ).loc main_arg2)) t f := by
  unfold Cert.Spec.projT Cert.Spec.proj
  exact Finset.sum_congr rfl fun h _ => congrArg₂ (· * ·) (Cert.KernelIdeal.HostVal.x_at m c (ix2 t h)) (Cert.KernelIdeal.HostVal.w1t_at m c h f)

/-- The same for the third weight. -/
theorem proj3_eq (c : Dev nD) (t : Fin 4096) (f : Fin 7168) :
    Cert.Spec.projT (Fr.V1 m c main_v0) (Fr.V1 m c main_v14) t f
      = Cert.Spec.proj (m ((c : Thread nD τ).loc main_arg0)) (m ((c : Thread nD τ).loc main_arg3)) (m ((c : Thread nD τ).loc main_arg4)) t f := by
  unfold Cert.Spec.projT Cert.Spec.proj
  exact Finset.sum_congr rfl fun h _ => congrArg₂ (· * ·) (Cert.KernelIdeal.HostVal.x_at m c (ix2 t h)) (Cert.KernelIdeal.HostVal.w3t_at m c h f)

/-- So the first call's gated activation is the specification's. -/
theorem act_eq (c : Dev nD) (t : Fin 4096) (f : Fin 7168) :
    Cert.Spec.actT (Fr.V1 m c main_v0) (Fr.V1 m c main_v7) (Fr.V1 m c main_v14) t f
      = Cert.Spec.act (m ((c : Thread nD τ).loc main_arg0)) (m ((c : Thread nD τ).loc main_arg1)) (m ((c : Thread nD τ).loc main_arg2))
          (m ((c : Thread nD τ).loc main_arg3)) (m ((c : Thread nD τ).loc main_arg4)) t f := by
  unfold Cert.Spec.actT Cert.Spec.act
  rw [proj1_eq m c t f, proj3_eq m c t f]

/-- The second call reads the first call's output array as the first call left it (the gated activation) and the
    rebuilt, transposed second weight as the host operations left it; its row-against-column sums are the
    specification's result. -/
theorem out_eq (c : Dev nD) (t : Fin 4096) (h : Fin 2048) :
    Cert.Spec.outT (Fr.V2 m c main_v22) (Fr.V2 m c main_v21) t h
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) t h := by
  unfold Cert.Spec.outT Cert.Spec.out
  refine Finset.sum_congr rfl fun f _ => ?_
  have e22 : (Fr.V2 m c main_v22 : S4096x7168.Idx → EReal) (ix2 t f)
      = Cert.Spec.act (m ((c : Thread nD τ).loc main_arg0)) (m ((c : Thread nD τ).loc main_arg1)) (m ((c : Thread nD τ).loc main_arg2))
          (m ((c : Thread nD τ).loc main_arg3)) (m ((c : Thread nD τ).loc main_arg4)) t f :=
    (congrFun ((W2_main_v22 m c).trans (Cert.KernelIdeal.Val.arr0_eq (Fr.V1 m) c)) (ix2 t f)).trans (act_eq m c t f)
  have e21 : (Fr.V2 m c main_v21 : S7168x2048.Idx → EReal) (ix2 f h)
      = Cert.Spec.wB (m ((c : Thread nD τ).loc main_arg5)) (m ((c : Thread nD τ).loc main_arg6)) h f :=
    (congrFun (W2_main_v21 m c) (ix2 f h)).trans (Cert.KernelIdeal.HostVal.w2t_at m c f h)
  exact congrArg₂ (· * ·) e22 e21

/-- The kernel program's result array is the specification `G` of its seven argument arrays. -/
theorem result_eq_G (c : Dev nD) :
    ((dat1 (F := Ideal) (Fr.V2 m) c).arrAt 2 cfg1.N : S4096x2048.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) :=
  (Cert.KernelIdeal.Val1.arr1_eq (Fr.V2 m) c).trans (funext fun i => out_eq m c (i 0) (i 1))

end Cert.KernelIdeal.Bridge

end
-- ==== Proof.RefIsG.lean ====
/-
  The reference program computes the specification function, index by index, on the extended reals.

  Each weight reaches the reference as a matrix of quantized values and a matrix of per-tile scales.  The
  reference views the [N, K] matrix as [N/128, 128, K/128, 128], multiplies by the scales broadcast along the two
  axes of length 128, and views the product as [N, K] again.  Entry (n, k) of a row-major [N, K] matrix sits at flat
  position n·K + k; in the four-axis view the same position has coordinates (n / 128, n % 128, k / 128, k % 128).
  So the round trip through the four-axis view returns to (n, k), and the scale met on the way is the one of tile
  (n / 128, k / 128): the dequantized entry is q(n, k) · s(n / 128, k / 128).

  With that, every later stage is read at an index and is the specification's expression at that index: the two
  projections are sums over the 2048 hidden coordinates of a row of the input against a row of a dequantized
  weight (the reference transposes the weight first, which only swaps the two coordinates); the gate is
  g · (1 / (1 + exp (-g))), and 1 / (1 + exp (-g)) is the logistic function by definition; the result is the sum
  over the 7168 inner coordinates of the gated activation against a row of the last weight.  Both sides are the
  same sums in the same order, so no algebraic law is used beyond the arithmetic of the tile coordinates.
-/
import proofs.«156519_j90640989814791_1_alg».proof.Proof.Gen.ReferenceIdeal.Read
import proofs.«156519_j90640989814791_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The single-precision pattern of 1.0 (sign 0, biased exponent 127, fraction 0) denotes the extended real 1. -/
theorem one_pat : Ideal.ofBits .f32 0x3F800000#32 = 1 := by
  simp [Ideal.ofBits, Ideal.ieee, -EReal.coe_mul]; norm_num

/-! ## A [7168, 2048] matrix viewed as [56, 128, 16, 128] and back

  Flat position of (f, h) is L = 2048 f + h with h < 2048.  Its four coordinates are
  (L / 262144, L / 2048 % 128, L / 128 % 16, L % 128) = (f / 128, f % 128, h / 128, h % 128), and the flat position
  of those, ((a·128 + b)·16 + c)·128 + d, is L again. -/

/-- Through the four-axis view and back, entry (f, h) of the quantized matrix is read at (f, h). -/
theorem src_A (f : Fin 7168) (h : Fin 2048) :
    idx_main_v0 (idx_main_v4 (ix2 f h)) = ix2 f h := by
  funext a
  apply Fin.ext
  have hf := f.isLt
  have hh := h.isLt
  match a with
  | ⟨0, _⟩ =>
    show ((((f.val * 2048 + h.val) / 262144 * 128 + (f.val * 2048 + h.val) / 2048 % 128) * 16
      + (f.val * 2048 + h.val) / 128 % 16) * 128 + (f.val * 2048 + h.val) % 128) / 2048 = f.val
    omega
  | ⟨1, _⟩ =>
    show ((((f.val * 2048 + h.val) / 262144 * 128 + (f.val * 2048 + h.val) / 2048 % 128) * 16
      + (f.val * 2048 + h.val) / 128 % 16) * 128 + (f.val * 2048 + h.val) % 128) % 2048 = h.val
    omega

/-- The scale that the broadcast along the two axes of length 128 puts at (f, h) is the one of tile (f / 128, h / 128):
    (2048 f + h) / 262144 = f / 128, and (2048 f + h) / 128 % 16 = (16 f + h / 128) % 16 = h / 128. -/
theorem scale_A (f : Fin 7168) (h : Fin 2048) :
    idx_main_v1 (idx_main_v2 (idx_main_v4 (ix2 f h)))
      = ix2 (⟨f.val / 128, by omega⟩ : Fin 56) (⟨h.val / 128, by omega⟩ : Fin 16) := by
  funext a
  apply Fin.ext
  have hf := f.isLt
  have hh := h.isLt
  match a with
  | ⟨0, _⟩ =>
    show (f.val * 2048 + h.val) / 262144 = f.val / 128
    omega
  | ⟨1, _⟩ =>
    show (f.val * 2048 + h.val) / 128 % 16 = h.val / 128
    omega

/-! ## A [2048, 7168] matrix viewed as [16, 128, 56, 128] and back

  The same with the two extents exchanged: L = 7168 h + f with f < 7168, coordinates
  (L / 917504, L / 7168 % 128, L / 128 % 56, L % 128) = (h / 128, h % 128, f / 128, f % 128). -/

/-- Through the four-axis view and back, entry (h, f) of the quantized matrix is read at (h, f). -/
theorem src_B (h : Fin 2048) (f : Fin 7168) :
    idx_main_v10 (idx_main_v14 (ix2 h f)) = ix2 h f := by
  funext a
  apply Fin.ext
  have hf := f.isLt
  have hh := h.isLt
  match a with
  | ⟨0, _⟩ =>
    show ((((h.val * 7168 + f.val) / 917504 * 128 + (h.val * 7168 + f.val) / 7168 % 128) * 56
      + (h.val * 7168 + f.val) / 128 % 56) * 128 + (h.val * 7168 + f.val) % 128) / 7168 = h.val
    omega
  | ⟨1, _⟩ =>
    show ((((h.val * 7168 + f.val) / 917504 * 128 + (h.val * 7168 + f.val) / 7168 % 128) * 56
      + (h.val * 7168 + f.val) / 128 % 56) * 128 + (h.val * 7168 + f.val) % 128) % 7168 = f.val
    omega

/-- The scale met at (h, f) is the one of tile (h / 128, f / 128). -/
theorem scale_B (h : Fin 2048) (f : Fin 7168) :
    idx_main_v11 (idx_main_v12 (idx_main_v14 (ix2 h f)))
      = ix2 (⟨h.val / 128, by omega⟩ : Fin 16) (⟨f.val / 128, by omega⟩ : Fin 56) := by
  funext a
  apply Fin.ext
  have hf := f.isLt
  have hh := h.isLt
  match a with
  | ⟨0, _⟩ =>
    show (h.val * 7168 + f.val) / 917504 = h.val / 128
    omega
  | ⟨1, _⟩ =>
    show (h.val * 7168 + f.val) / 128 % 56 = f.val / 128
    omega

/-! ## The three dequantized weights at an index -/

/-- The first weight at (f, h): quantized value times the scale of its tile. -/
theorem w1_at (x1 : (⟨S7168x2048, .f32⟩ : BufTy).Contents (Elt Ideal)) (x2 : (⟨S56x16, .f32⟩ : BufTy).Contents (Elt Ideal))
    (f : Fin 7168) (h : Fin 2048) :
    val_main_v4 (F := Ideal) x1 x2 (ix2 f h) = Cert.Spec.wA x1 x2 f h := by
  rw [val_main_v4_apply, val_main_v3_apply, val_main_v0_apply, val_main_v2_apply, val_main_v1_apply,
    src_A, scale_A]
  rfl

/-- The third weight at (f, h); its index maps are those of the first, letter for letter. -/
theorem w3_at (x3 : (⟨S7168x2048, .f32⟩ : BufTy).Contents (Elt Ideal)) (x4 : (⟨S56x16, .f32⟩ : BufTy).Contents (Elt Ideal))
    (f : Fin 7168) (h : Fin 2048) :
    val_main_v9 (F := Ideal) x3 x4 (ix2 f h) = Cert.Spec.wA x3 x4 f h := by
  rw [val_main_v9_apply, val_main_v8_apply, val_main_v5_apply, val_main_v7_apply, val_main_v6_apply,
    show idx_main_v5 (idx_main_v9 (ix2 f h)) = ix2 f h from src_A f h,
    show idx_main_v6 (idx_main_v7 (idx_main_v9 (ix2 f h))) = _ from scale_A f h]
  rfl

/-- The second weight at (h, f). -/
theorem w2_at (x5 : (⟨S2048x7168, .f32⟩ : BufTy).Contents (Elt Ideal)) (x6 : (⟨S16x56, .f32⟩ : BufTy).Contents (Elt Ideal))
    (h : Fin 2048) (f : Fin 7168) :
    val_main_v14 (F := Ideal) x5 x6 (ix2 h f) = Cert.Spec.wB x5 x6 h f := by
  rw [val_main_v14_apply, val_main_v13_apply, val_main_v10_apply, val_main_v12_apply, val_main_v11_apply,
    src_B, scale_B]
  rfl

/-! ## The two projections, the activation and the result -/

/-- g at (t, f): the sum over the hidden coordinate k of x(t, k) times the first weight at (f, k); the transposed
    weight at (k, f) is the weight at (f, k). -/
theorem g_at (x0 : (⟨S4096x2048, .f32⟩ : BufTy).Contents (Elt Ideal)) (x1 : (⟨S7168x2048, .f32⟩ : BufTy).Contents (Elt Ideal))
    (x2 : (⟨S56x16, .f32⟩ : BufTy).Contents (Elt Ideal)) (t : Fin 4096) (f : Fin 7168) :
    val_main_v16 (F := Ideal) x0 x1 x2 (ix2 t f) = Cert.Spec.proj x0 x1 x2 t f := by
  rw [val_main_v16_apply]
  unfold Cert.Spec.proj
  refine Finset.sum_congr rfl fun k _ => ?_
  have el : lidx_main_v16 (ix2 t f) k = ix2 t k :=
    funext fun a => Fin.ext (by match a with | ⟨0, _⟩ => rfl | ⟨1, _⟩ => rfl)
  have er : idx_main_v15 (ridx_main_v16 (ix2 t f) k) = ix2 f k :=
    funext fun a => Fin.ext (by match a with | ⟨0, _⟩ => rfl | ⟨1, _⟩ => rfl)
  rw [val_main_v15_apply, el, er, w1_at]

/-- u at (t, f): the same sum against the third weight. -/
theorem u_at (x0 : (⟨S4096x2048, .f32⟩ : BufTy).Contents (Elt Ideal)) (x3 : (⟨S7168x2048, .f32⟩ : BufTy).Contents (Elt Ideal))
    (x4 : (⟨S56x16, .f32⟩ : BufTy).Contents (Elt Ideal)) (t : Fin 4096) (f : Fin 7168) :
    val_main_v18 (F := Ideal) x0 x3 x4 (ix2 t f) = Cert.Spec.proj x0 x3 x4 t f := by
  rw [val_main_v18_apply]
  unfold Cert.Spec.proj
  refine Finset.sum_congr rfl fun k _ => ?_
  have el : lidx_main_v18 (ix2 t f) k = ix2 t k :=
    funext fun a => Fin.ext (by match a with | ⟨0, _⟩ => rfl | ⟨1, _⟩ => rfl)
  have er : idx_main_v17 (ridx_main_v18 (ix2 t f) k) = ix2 f k :=
    funext fun a => Fin.ext (by match a with | ⟨0, _⟩ => rfl | ⟨1, _⟩ => rfl)
  rw [val_main_v17_apply, el, er, w3_at]

/-- The gated activation at (t, f): (g · (1 / (1 + exp (-g)))) · u, the middle factor being the logistic function of g
    by its definition. -/
theorem act_at (x0 : (⟨S4096x2048, .f32⟩ : BufTy).Contents (Elt Ideal)) (x1 : (⟨S7168x2048, .f32⟩ : BufTy).Contents (Elt Ideal))
    (x2 : (⟨S56x16, .f32⟩ : BufTy).Contents (Elt Ideal)) (x3 : (⟨S7168x2048, .f32⟩ : BufTy).Contents (Elt Ideal))
    (x4 : (⟨S56x16, .f32⟩ : BufTy).Contents (Elt Ideal)) (t : Fin 4096) (f : Fin 7168) :
    val_main_v20 (F := Ideal) x0 x1 x2 x3 x4 (ix2 t f) = Cert.Spec.act x0 x1 x2 x3 x4 t f := by
  rw [val_main_v20_apply, val_main_v19_apply, val_main_call0_v5_apply, val_main_call0_v4_apply,
    val_main_call0_cst_0_apply, val_main_call0_v3_apply, val_main_call0_v2_apply, val_main_call0_cst_apply,
    val_main_call0_v1_apply, val_main_call0_v0_apply, g_at, u_at]
  unfold Cert.Spec.act
  simp only [Ideal.ofBits_def, one_pat]
  rfl

/-- The reference's result is the specification: at (t, h), the sum over the inner coordinate f of the activation at
    (t, f) times the second weight at (h, f). -/
theorem val_main_v22_eq_G
    (x0 : (⟨Cert.ReferenceIdeal.S4096x2048, .f32⟩ : BufTy).Contents (Elt Ideal)) (x1 : (⟨Cert.ReferenceIdeal.S7168x2048, .f32⟩ : BufTy).Contents (Elt Ideal)) (x2 : (⟨Cert.ReferenceIdeal.S56x16, .f32⟩ : BufTy).Contents (Elt Ideal))
    (x3 : (⟨Cert.ReferenceIdeal.S7168x2048, .f32⟩ : BufTy).Contents (Elt Ideal)) (x4 : (⟨Cert.ReferenceIdeal.S56x16, .f32⟩ : BufTy).Contents (Elt Ideal))
    (x5 : (⟨Cert.ReferenceIdeal.S2048x7168, .f32⟩ : BufTy).Contents (Elt Ideal)) (x6 : (⟨Cert.ReferenceIdeal.S16x56, .f32⟩ : BufTy).Contents (Elt Ideal)) :
    Cert.ReferenceIdeal.Read.val_main_v22 (F := Ideal) x0 x1 x2 x3 x4 x5 x6 = Cert.Spec.G x0 x1 x2 x3 x4 x5 x6 := by
  funext i
  obtain ⟨t, h, rfl⟩ : ∃ (t : Fin 4096) (h : Fin 2048), i = ix2 t h := ⟨i 0, i 1, eq_ix2 i⟩
  rw [val_main_v22_apply]
  show _ = Cert.Spec.out x0 x1 x2 x3 x4 x5 x6 t h
  unfold Cert.Spec.out
  refine Finset.sum_congr rfl fun k _ => ?_
  have el : lidx_main_v22 (ix2 t h) k = ix2 t k :=
    funext fun a => Fin.ext (by match a with | ⟨0, _⟩ => rfl | ⟨1, _⟩ => rfl)
  have er : idx_main_v21 (ridx_main_v22 (ix2 t h) k) = ix2 h k :=
    funext fun a => Fin.ext (by match a with | ⟨0, _⟩ => rfl | ⟨1, _⟩ => rfl)
  rw [val_main_v21_apply, el, er, act_at, w2_at]

end Cert.ReferenceIdeal.RefValue

end
-- ==== Proof.lean ====
/-
  The certificate of the gated feed-forward kernel against its reference.

  Both programs compute, from activations `x` and three weights given as quantized values with one scale per
  128 × 128 tile, the array `((g · σ(g)) · u) · W2ᵀ` with `g = x · W1ᵀ`, `u = x · W3ᵀ` and `σ` the logistic function
  (the specification `Cert.Spec.G`).  The reference does so with three whole matrix products.  The kernel casts and
  rebuilds the weights on the host and runs two pallas_calls, each accumulating its products block by block over
  the contracted axis in a scratch buffer carried across grid positions.  On the extended reals the casts are the
  identity, the kernel's logistic operation is the reference's `1 / (1 + e⁻ˣ)`, and a sum taken block by block is the
  whole sum, so the two results agree index by index; no finiteness of the inputs is needed.

  The three frames: each kernel program's run (one launch over its host operations and its two calls, every
  unscoped buffer named between the items) ends with the argument arrays as launched; the reference's is its
  generated run.  The idealization rewrote no operation, so `preserves` is trivial.
-/
import proofs.«156519_j90640989814791_1_alg».proof.Defs
import proofs.«156519_j90640989814791_1_alg».proof.Proof.Gen.Kernel
import proofs.«156519_j90640989814791_1_alg».proof.Proof.Gen.KernelIdeal
import proofs.«156519_j90640989814791_1_alg».proof.Proof.Gen.ReferenceIdeal
import proofs.«156519_j90640989814791_1_alg».proof.Proof.Gen.ReferenceIdeal.Run
import proofs.«156519_j90640989814791_1_alg».proof.Proof.Gen.ReferenceIdeal.Read
import proofs.«156519_j90640989814791_1_alg».proof.Proof.Gen.Pre_finite_inputs
import proofs.«156519_j90640989814791_1_alg».proof.Proof.KRun
import proofs.«156519_j90640989814791_1_alg».proof.Proof.Run
import proofs.«156519_j90640989814791_1_alg».proof.Proof.Bridge
import proofs.«156519_j90640989814791_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the specification `G` of the (agreeing) arguments in their result buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Bridge.result_eq_G m c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.val_main_v22_eq_G,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
